-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x92 : Shape := ⟨3, ![64, 300, 92]⟩
abbrev S64x300x4 : Shape := ⟨3, ![64, 300, 4]⟩
abbrev S2048 : Shape := ⟨1, ![2048]⟩
abbrev S2048x4 : Shape := ⟨2, ![2048, 4]⟩
abbrev S_ : Shape := ⟨0, ![]⟩

class Facts : Prop where
  bcast_S_S64x300x92 : S_.BroadcastsInDim S64x300x92 (![] : Fin 0 → Fin S64x300x92.rank)
  reducesTo_S64x300x92_S_d0_1_2 : S64x300x92.ReducesTo [0, 1, 2] S_
  h_S_ : 0 < S_.numel
  bcast_S_S64x300x4 : S_.BroadcastsInDim S64x300x4 (![] : Fin 0 → Fin S64x300x4.rank)
  reducesTo_S64x300x4_S_d0_1_2 : S64x300x4.ReducesTo [0, 1, 2] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg2 : IVec S2048 32) (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  let main_c_6 : IVec S_ 32 := constantI S_ 32 92#32
  let main_v18 : IVec S2048 32 := broadcastInDim S2048 ![] bcast_S_S2048 main_c_6
  let main_v19 : IVec S2048 1 := cmpi .slt main_arg2 main_v18
  let main_c_7 : IVec S_ 1 := constantI S_ 1 1#1
  let main_v20 : IVec S_ 1 := (fun x v => Host.reduce IntOp.andi x v reducesTo_S2048_S_d0 h_S_) main_v19 main_c_7
  let main_v21 : IVec S_ 1 := andi main_v17 main_v20
  main_v21

def fn {F : FTy → Type} [FloatOps F] (main_arg0 : FVec F S64x300x92 .f32) (main_arg1 : FVec F S64x300x4 .f32) (main_arg2 : IVec S2048 32) (main_arg3 : FVec F S2048x4 .f32) : IVec S_ 1 :=
  let main_v0 : FVec F S64x300x92 .f32 := Host.absf main_arg0
  let main_cst : FVec F S_ .f32 := constant S_ .f32 0x7F800000#32
  let main_v1 : FVec F S64x300x92 .f32 := broadcastInDim S64x300x92 ![] bcast_S_S64x300x92 main_cst
  let main_v2 : IVec S64x300x92 1 := cmpf .olt main_v0 main_v1
  let main_c : IVec S_ 1 := constantI S_ 1 1#1
  let main_v3 : IVec S_ 1 := (fun x v => Host.reduce IntOp.andi x v reducesTo_S64x300x92_S_d0_1_2 h_S_) main_v2 main_c
  let main_v4 : FVec F S64x300x4 .f32 := Host.absf main_arg1
  let main_cst_0 : FVec F S_ .f32 := constant S_ .f32 0x7F800000#32
  let main_v5 : FVec F S64x300x4 .f32 := broadcastInDim S64x300x4 ![] bcast_S_S64x300x4 main_cst_0
  let main_v6 : IVec S64x300x4 1 := cmpf .olt main_v4 main_v5
  let main_c_1 : IVec S_ 1 := constantI S_ 1 1#1
  let main_v7 : IVec S_ 1 := (fun x v => Host.reduce IntOp.andi x v reducesTo_S64x300x4_S_d0_1_2 h_S_) main_v6 main_c_1
  let main_v8 : IVec S_ 1 := andi main_v3 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg2 main_v14
  let main_c_5 : IVec S_ 1 := constantI S_ 1 1#1
  fn_part1 (F := F) main_arg2 main_v13 main_v15 main_c_5
-- ==== Kernel.lean ====
abbrev S64x300x92 : Shape := ⟨3, ![64, 300, 92]⟩
abbrev S64x300x4 : Shape := ⟨3, ![64, 300, 4]⟩
abbrev S2048 : Shape := ⟨1, ![2048]⟩
abbrev S2048x4 : Shape := ⟨2, ![2048, 4]⟩
abbrev S19200x92 : Shape := ⟨2, ![19200, 92]⟩
abbrev S19200x4 : Shape := ⟨2, ![19200, 4]⟩
abbrev S92 : Shape := ⟨1, ![92]⟩
abbrev S92x1 : Shape := ⟨2, ![92, 1]⟩
abbrev S1x2048 : Shape := ⟨2, ![1, 2048]⟩
abbrev S92x2048 : Shape := ⟨2, ![92, 2048]⟩
abbrev S19200x2048 : Shape := ⟨2, ![19200, 2048]⟩
abbrev S480x92 : Shape := ⟨2, ![480, 92]⟩
abbrev S480x4 : Shape := ⟨2, ![480, 4]⟩
abbrev S256x4 : Shape := ⟨2, ![256, 4]⟩
abbrev S92x256 : Shape := ⟨2, ![92, 256]⟩
abbrev S480x256 : Shape := ⟨2, ![480, 256]⟩
abbrev S480 : Shape := ⟨1, ![480]⟩
abbrev S480x1 : Shape := ⟨2, ![480, 1]⟩
abbrev S4x256 : Shape := ⟨2, ![4, 256]⟩
abbrev S1x256 : Shape := ⟨2, ![1, 256]⟩
abbrev S64x300x2048 : Shape := ⟨3, ![64, 300, 2048]⟩

abbrev nBuf : Space → Nat
  | .hbm => 15
  | .vmem => 10
  | .smem => 0
  | _ => 0

abbrev bufTy : (tb : Table) → Fin (tcTables nBuf tb) → BufTy
  | .hbm, ⟨0, _⟩ => ⟨S64x300x92, .f32⟩
  | .hbm, ⟨1, _⟩ => ⟨S64x300x4, .f32⟩
  | .hbm, ⟨2, _⟩ => ⟨S2048, .i32⟩
  | .hbm, ⟨3, _⟩ => ⟨S2048x4, .f32⟩
  | .hbm, ⟨4, _⟩ => ⟨S19200x92, .f32⟩
  | .hbm, ⟨5, _⟩ => ⟨S19200x4, .f32⟩
  | .hbm, ⟨6, _⟩ => ⟨S92, .i32⟩
  | .hbm, ⟨7, _⟩ => ⟨S92x1, .i32⟩
  | .hbm, ⟨8, _⟩ => ⟨S1x2048, .i32⟩
  | .hbm, ⟨9, _⟩ => ⟨S92x2048, .i32⟩
  | .hbm, ⟨10, _⟩ => ⟨S92x2048, .i32⟩
  | .hbm, ⟨11, _⟩ => ⟨S92x2048, .i1⟩
  | .hbm, ⟨12, _⟩ => ⟨S92x2048, .f32⟩
  | .hbm, ⟨13, _⟩ => ⟨S19200x2048, .f32⟩
  | .hbm, ⟨14, _⟩ => ⟨S64x300x2048, .f32⟩
  | .local _ .vmem, ⟨0, _⟩ => ⟨S480x92, .f32⟩
  | .local _ .vmem, ⟨1, _⟩ => ⟨S480x92, .f32⟩
  | .local _ .vmem, ⟨2, _⟩ => ⟨S480x4, .f32⟩
  | .local _ .vmem, ⟨3, _⟩ => ⟨S480x4, .f32⟩
  | .local _ .vmem, ⟨4, _⟩ => ⟨S256x4, .f32⟩
  | .local _ .vmem, ⟨5, _⟩ => ⟨S256x4, .f32⟩
  | .local _ .vmem, ⟨6, _⟩ => ⟨S92x256, .f32⟩
  | .local _ .vmem, ⟨7, _⟩ => ⟨S92x256, .f32⟩
  | .local _ .vmem, ⟨8, _⟩ => ⟨S480x256, .f32⟩
  | .local _ .vmem, ⟨9, _⟩ => ⟨S480x256, .f32⟩
  | _, _ => ⟨S64x300x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S480x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S92x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S480x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x300x92_S19200x92 : S64x300x92.ShapeCasts S19200x92
  shapeCasts_S64x300x4_S19200x4 : S64x300x4.ShapeCasts S19200x4
  bcast_S92_S92x1_0 : S92.BroadcastsInDim S92x1 (![0] : Fin 1 → Fin S92x1.rank)
  bcast_S2048_S1x2048_1 : S2048.BroadcastsInDim S1x2048 (![1] : Fin 1 → Fin S1x2048.rank)
  bcast_S92x1_S92x2048_0_1 : S92x1.BroadcastsInDim S92x2048 (![0, 1] : Fin 2 → Fin S92x2048.rank)
  bcast_S1x2048_S92x2048_0_1 : S1x2048.BroadcastsInDim S92x2048 (![0, 1] : Fin 2 → Fin S92x2048.rank)
  inb_S480x92_S480x92_0_0 : ∀ a, (![0, 0] : Fin 2 → Nat) a + S480x92.size a ≤ S480x92.size a
  h_S480x92 : 0 < S480x92.numel
  shapeCasts_S480x92_S480x92 : S480x92.ShapeCasts S480x92
  reduces_S480x92_S480 : S480x92.Reduces [1] S480
  shapeCasts_S480_S480x1 : S480.ShapeCasts S480x1
  broadcasts_S480x1_S480x92 : S480x1.Broadcasts S480x92
  bitsLt_bf16_f32 : FTy.bits .bf16 < FTy.bits .f32
  inb_S92x256_S92x256_0_0 : ∀ a, (![0, 0] : Fin 2 → Nat) a + S92x256.size a ≤ S92x256.size a
  h_S92x256 : 0 < S92x256.numel
  shapeCasts_S92x256_S92x256 : S92x256.ShapeCasts S92x256
  inb_S480x4_S480x4_0_0 : ∀ a, (![0, 0] : Fin 2 → Nat) a + S480x4.size a ≤ S480x4.size a
  h_S480x4 : 0 < S480x4.numel
  shapeCasts_S480x4_S480x4 : S480x4.ShapeCasts S480x4
  inb_S256x4_S256x4_0_0 : ∀ a, (![0, 0] : Fin 2 → Nat) a + S256x4.size a ≤ S256x4.size a
  h_S256x4 : 0 < S256x4.numel
  transposes_S256x4_p1_0_S4x256 : S256x4.Transposes [1, 0] S4x256
  slices_S480x4_o0_0_S480x1 : S480x4.Slices ![0, 0] S480x1
  slices_S4x256_o0_0_S1x256 : S4x256.Slices ![0, 0] S1x256
  broadcasts_S480x1_S480x256 : S480x1.Broadcasts S480x256
  broadcasts_S1x256_S480x256 : S1x256.Broadcasts S480x256
  slices_S480x4_o0_1_S480x1 : S480x4.Slices ![0, 1] S480x1
  slices_S4x256_o1_0_S1x256 : S4x256.Slices ![1, 0] S1x256
  slices_S480x4_o0_2_S480x1 : S480x4.Slices ![0, 2] S480x1
  slices_S4x256_o2_0_S1x256 : S4x256.Slices ![2, 0] S1x256
  slices_S480x4_o0_3_S480x1 : S480x4.Slices ![0, 3] S480x1
  slices_S4x256_o3_0_S1x256 : S4x256.Slices ![3, 0] S1x256
  inb_S480x256_S480x256_0_0 : ∀ a, (![0, 0] : Fin 2 → Nat) a + S480x256.size a ≤ S480x256.size a
  h_S480x256 : 0 < S480x256.numel
  shapeCasts_S19200x2048_S64x300x2048 : S19200x2048.ShapeCasts S64x300x2048
  dot_S480x92_S92x256_S480x256_1_0_0_1_n_n_wf : DotDims.WF S480x92 S92x256 S480x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x92.size a ≤ S19200x92.size a
  hwx0_0 : ∀ i : grid0.Coords, EltTy.bits .f32 = 32 ∨ (Rect.block (s := S19200x92) S480x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S19200x4.size a
  hwx0_1 : ∀ i : grid0.Coords, EltTy.bits .f32 = 32 ∨ (Rect.block (s := S19200x4) S480x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S2048x4.size a
  hwx0_2 : ∀ i : grid0.Coords, EltTy.bits .f32 = 32 ∨ (Rect.block (s := S2048x4) S256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S92x256.size a ≤ S92x2048.size a
  hwx0_3 : ∀ i : grid0.Coords, EltTy.bits .f32 = 32 ∨ (Rect.block (s := S92x2048) S92x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x256.size a ≤ S19200x2048.size a
  hwx0_4 : ∀ i : grid0.Coords, EltTy.bits .f32 = 32 ∨ (Rect.block (s := S19200x2048) S480x256.size (cc0_transform_4 i) (hinb0_4 i)).WholeWords (EltTy.packing .f32)

variable [Facts₀]

def dot_S480x92_S92x256_S480x256_1_0_0_1_n_n : DotDims S480x92 S92x256 S480x256 where
  lhsContracting := [1]
  rhsContracting := [0]
  lhsNonContracting := [0]
  rhsNonContracting := [1]
  lhsBatch := []
  rhsBatch := []
  wf := dot_S480x92_S92x256_S480x256_1_0_0_1_n_n_wf

abbrev win0_0 : Pipeline.Window sig grid0 :=
  Pipeline.Window.ofSpec (Memref.whole main_v0) S480x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S92x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S480x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x300x92 : Shape := ⟨3, ![64, 300, 92]⟩
abbrev S64x300x4 : Shape := ⟨3, ![64, 300, 4]⟩
abbrev S2048 : Shape := ⟨1, ![2048]⟩
abbrev S2048x4 : Shape := ⟨2, ![2048, 4]⟩
abbrev S19200x92 : Shape := ⟨2, ![19200, 92]⟩
abbrev S_ : Shape := ⟨0, ![]⟩
abbrev S19200 : Shape := ⟨1, ![19200]⟩
abbrev S19200x1 : Shape := ⟨2, ![19200, 1]⟩
abbrev S19200x4 : Shape := ⟨2, ![19200, 4]⟩
abbrev S2048x1 : Shape := ⟨2, ![2048, 1]⟩
abbrev S19200x2048 : Shape := ⟨2, ![19200, 2048]⟩
abbrev S19200x1x4 : Shape := ⟨3, ![19200, 1, 4]⟩
abbrev S1x2048x4 : Shape := ⟨3, ![1, 2048, 4]⟩
abbrev S19200x2048x4 : Shape := ⟨3, ![19200, 2048, 4]⟩
abbrev S19200x2 : Shape := ⟨2, ![19200, 2]⟩
abbrev S19200x1x2 : Shape := ⟨3, ![19200, 1, 2]⟩
abbrev S2048x2 : Shape := ⟨2, ![2048, 2]⟩
abbrev S1x2048x2 : Shape := ⟨3, ![1, 2048, 2]⟩
abbrev S19200x2048x2 : Shape := ⟨3, ![19200, 2048, 2]⟩
abbrev S19200x2048x1 : Shape := ⟨3, ![19200, 2048, 1]⟩
abbrev S1x2048 : Shape := ⟨2, ![1, 2048]⟩
abbrev S64x300x2048 : Shape := ⟨3, ![64, 300, 2048]⟩

abbrev nBuf : Space → Nat
  | .hbm => 189
  | .vmem => 0
  | .smem => 0
  | _ => 0

abbrev hbmTy0_0 (i : Nat) : BufTy := match i % 128 with
  | 0 => ⟨S64x300x92, .f32⟩
  | 1 => ⟨S64x300x4, .f32⟩
  | 2 => ⟨S2048, .i32⟩
  | 3 => ⟨S2048x4, .f32⟩
  | 4 => ⟨S19200x92, .f32⟩
  | 5 => ⟨S_, .f32⟩
  | 6 => ⟨S19200, .f32⟩
  | 7 => ⟨S_, .f32⟩
  | 8 => ⟨S19200, .f32⟩
  | 9 => ⟨S19200, .f32⟩
  | 10 => ⟨S19200x1, .f32⟩
  | 11 => ⟨S19200x92, .f32⟩
  | 12 => ⟨S19200x92, .f32⟩
  | 13 => ⟨S19200x92, .f32⟩
  | 14 => ⟨S_, .f32⟩
  | 15 => ⟨S19200, .f32⟩
  | 16 => ⟨S19200x1, .f32⟩
  | 17 => ⟨S19200x92, .f32⟩
  | 18 => ⟨S19200x92, .f32⟩
  | 19 => ⟨S19200x4, .f32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S19200x2048, .f32⟩
  | 29 => ⟨S19200x2048, .f32⟩
  | 30 => ⟨S19200x1x4, .f32⟩
  | 31 => ⟨S1x2048x4, .f32⟩
  | 32 => ⟨S19200x2048x4, .f32⟩
  | 33 => ⟨S19200x2048x4, .f32⟩
  | 34 => ⟨S19200x2048x4, .f32⟩
  | 35 => ⟨S19200x2048x4, .f32⟩
  | 36 => ⟨S_, .f32⟩
  | 37 => ⟨S19200x2048, .f32⟩
  | 38 => ⟨S19200x1, .f32⟩
  | 39 => ⟨S19200, .f32⟩
  | 40 => ⟨S19200x1, .f32⟩
  | 41 => ⟨S19200, .f32⟩
  | 42 => ⟨S19200x1, .f32⟩
  | 43 => ⟨S19200, .f32⟩
  | 44 => ⟨S19200x1, .f32⟩
  | 45 => ⟨S19200, .f32⟩
  | 46 => ⟨S_, .f32⟩
  | 47 => ⟨S19200, .f32⟩
  | 48 => ⟨S19200, .f32⟩
  | 49 => ⟨S19200, .f32⟩
  | 50 => ⟨S_, .f32⟩
  | 51 => ⟨S19200, .f32⟩
  | 52 => ⟨S19200, .f32⟩
  | 53 => ⟨S19200, .f32⟩
  | 54 => ⟨S_, .f32⟩
  | 55 => ⟨S19200, .f32⟩
  | 56 => ⟨S19200, .f32⟩
  | 57 => ⟨S19200, .f32⟩
  | 58 => ⟨S_, .f32⟩
  | 59 => ⟨S19200, .f32⟩
  | 60 => ⟨S19200, .f32⟩
  | 61 => ⟨S19200, .f32⟩
  | 62 => ⟨S19200x1, .f32⟩
  | 63 => ⟨S19200x1, .f32⟩
  | 64 => ⟨S19200x1, .f32⟩
  | 65 => ⟨S19200x1, .f32⟩
  | 66 => ⟨S19200x4, .f32⟩
  | 67 => ⟨S2048x1, .f32⟩
  | 68 => ⟨S2048, .f32⟩
  | 69 => ⟨S2048x1, .f32⟩
  | 70 => ⟨S2048, .f32⟩
  | 71 => ⟨S2048x1, .f32⟩
  | 72 => ⟨S2048, .f32⟩
  | 73 => ⟨S2048x1, .f32⟩
  | 74 => ⟨S2048, .f32⟩
  | 75 => ⟨S_, .f32⟩
  | 76 => ⟨S2048, .f32⟩
  | 77 => ⟨S2048, .f32⟩
  | 78 => ⟨S2048, .f32⟩
  | 79 => ⟨S_, .f32⟩
  | 80 => ⟨S2048, .f32⟩
  | 81 => ⟨S2048, .f32⟩
  | 82 => ⟨S2048, .f32⟩
  | 83 => ⟨S_, .f32⟩
  | 84 => ⟨S2048, .f32⟩
  | 85 => ⟨S2048, .f32⟩
  | 86 => ⟨S2048, .f32⟩
  | 87 => ⟨S_, .f32⟩
  | 88 => ⟨S2048, .f32⟩
  | 89 => ⟨S2048, .f32⟩
  | 90 => ⟨S2048, .f32⟩
  | 91 => ⟨S2048x1, .f32⟩
  | 92 => ⟨S2048x1, .f32⟩
  | 93 => ⟨S2048x1, .f32⟩
  | 94 => ⟨S2048x1, .f32⟩
  | 95 => ⟨S2048x4, .f32⟩
  | 96 => ⟨S19200x1, .f32⟩
  | 97 => ⟨S19200, .f32⟩
  | 98 => ⟨S19200x1, .f32⟩
  | 99 => ⟨S19200, .f32⟩
  | 100 => ⟨S19200, .f32⟩
  | 101 => ⟨S19200x1, .f32⟩
  | 102 => ⟨S19200, .f32⟩
  | 103 => ⟨S19200x1, .f32⟩
  | 104 => ⟨S19200, .f32⟩
  | 105 => ⟨S19200, .f32⟩
  | 106 => ⟨S19200, .f32⟩
  | 107 => ⟨S2048x1, .f32⟩
  | 108 => ⟨S2048, .f32⟩
  | 109 => ⟨S2048x1, .f32⟩
  | 110 => ⟨S2048, .f32⟩
  | 111 => ⟨S2048, .f32⟩
  | 112 => ⟨S2048x1, .f32⟩
  | 113 => ⟨S2048, .f32⟩
  | 114 => ⟨S2048x1, .f32⟩
  | 115 => ⟨S2048, .f32⟩
  | 116 => ⟨S2048, .f32⟩
  | 117 => ⟨S2048, .f32⟩
  | 118 => ⟨S19200x2, .f32⟩
  | 119 => ⟨S19200x1x2, .f32⟩
  | 120 => ⟨S2048x2, .f32⟩
  | 121 => ⟨S1x2048x2, .f32⟩
  | 122 => ⟨S19200x2048x2, .f32⟩
  | 123 => ⟨S19200x2048x2, .f32⟩
  | 124 => ⟨S19200x2048x2, .f32⟩
  | 125 => ⟨S19200x2, .f32⟩
  | 126 => ⟨S19200x1x2, .f32⟩
  | 127 => ⟨S2048x2, .f32⟩
  | _ => ⟨S64x300x92, .f32⟩

abbrev hbmTy0_1 (i : Nat) : BufTy := match i % 128 with
  | 0 => ⟨S1x2048x2, .f32⟩
  | 1 => ⟨S19200x2048x2, .f32⟩
  | 2 => ⟨S19200x2048x2, .f32⟩
  | 3 => ⟨S19200x2048x2, .f32⟩
  | 4 => ⟨S19200x2048x2, .f32⟩
  | 5 => ⟨S_, .f32⟩
  | 6 => ⟨S_, .f32⟩
  | 7 => ⟨S19200x2048x2, .f32⟩
  | 8 => ⟨S19200x2048x2, .f32⟩
  | 9 => ⟨S19200x2048x1, .f32⟩
  | 10 => ⟨S19200x2048, .f32⟩
  | 11 => ⟨S19200x2048x1, .f32⟩
  | 12 => ⟨S19200x2048, .f32⟩
  | 13 => ⟨S19200x2048, .f32⟩
  | 14 => ⟨S19200x1, .f32⟩
  | 15 => ⟨S1x2048, .f32⟩
  | 16 => ⟨S19200x2048, .f32⟩
  | 17 => ⟨S19200x2048, .f32⟩
  | 18 => ⟨S19200x2048, .f32⟩
  | 19 => ⟨S19200x2048, .f32⟩
  | 20 => ⟨S19200x2048, .f32⟩
  | 21 => ⟨S19200x2, .f32⟩
  | 22 => ⟨S19200x1x2, .f32⟩
  | 23 => ⟨S2048x2, .f32⟩
  | 24 => ⟨S1x2048x2, .f32⟩
  | 25 => ⟨S19200x2048x2, .f32⟩
  | 26 => ⟨S19200x2048x2, .f32⟩
  | 27 => ⟨S19200x2048x2, .f32⟩
  | 28 => ⟨S19200x2, .f32⟩
  | 29 => ⟨S19200x1x2, .f32⟩
  | 30 => ⟨S2048x2, .f32⟩
  | 31 => ⟨S1x2048x2, .f32⟩
  | 32 => ⟨S19200x2048x2, .f32⟩
  | 33 => ⟨S19200x2048x2, .f32⟩
  | 34 => ⟨S19200x2048x2, .f32⟩
  | 35 => ⟨S19200x2048x2, .f32⟩
  | 36 => ⟨S_, .f32⟩
  | 37 => ⟨S_, .f32⟩
  | 38 => ⟨S19200x2048x2, .f32⟩
  | 39 => ⟨S19200x2048x2, .f32⟩
  | 40 => ⟨S19200x2048x1, .f32⟩
  | 41 => ⟨S19200x2048, .f32⟩
  | 42 => ⟨S19200x2048x1, .f32⟩
  | 43 => ⟨S19200x2048, .f32⟩
  | 44 => ⟨S19200x2048, .f32⟩
  | 45 => ⟨S19200x2048, .f32⟩
  | 46 => ⟨S19200x2048, .f32⟩
  | 47 => ⟨S19200x2048, .f32⟩
  | 48 => ⟨S19200x2048, .f32⟩
  | 49 => ⟨S_, .f32⟩
  | 50 => ⟨S19200x2048, .f32⟩
  | 51 => ⟨S19200x2048, .f32⟩
  | 52 => ⟨S_, .f32⟩
  | 53 => ⟨S19200x2048, .f32⟩
  | 54 => ⟨S19200x2048, .f32⟩
  | 55 => ⟨S19200x2048, .f32⟩
  | 56 => ⟨S_, .f32⟩
  | 57 => ⟨S19200x2048, .f32⟩
  | 58 => ⟨S19200x2048, .f32⟩
  | 59 => ⟨S19200x2048, .f32⟩
  | 60 => ⟨S64x300x2048, .f32⟩
  | _ => ⟨S64x300x92, .f32⟩

abbrev hbmTy (i : Nat) : BufTy := match i / 128 with
  | 0 => hbmTy0_0 i
  | 1 => hbmTy0_1 i
  | _ => ⟨S64x300x92, .f32⟩

abbrev bufTy : (tb : Table) → Fin (tcTables nBuf tb) → BufTy
  | .hbm, ⟨i, _⟩ => hbmTy i
  | _, _ => ⟨S64x300x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩

abbrev nD : Nat := 1
abbrev τ : Topo := Topo.v7x

variable {F : FTy → Type} [FloatOps F]

class Facts₀ : Prop where
  shapeCasts_S64x300x92_S19200x92 : S64x300x92.ShapeCasts S19200x92
  reducesTo_S19200x92_S19200_d1 : S19200x92.ReducesTo [1] S19200
  h_S_ : 0 < S_.numel
  bcast_S_S19200 : S_.BroadcastsInDim S19200 (![] : Fin 0 → Fin S19200.rank)
  bcast_S19200_S19200x1_0 : S19200.BroadcastsInDim S19200x1 (![0] : Fin 1 → Fin S19200x1.rank)
  bcast_S19200x1_S19200x92_0_1 : S19200x1.BroadcastsInDim S19200x92 (![0, 1] : Fin 2 → Fin S19200x92.rank)
  shapeCasts_S64x300x4_S19200x4 : S64x300x4.ShapeCasts S19200x4
  bcast_S_S2048 : S_.BroadcastsInDim S2048 (![] : Fin 0 → Fin S2048.rank)
  bcast_S2048_S2048x1_0 : S2048.BroadcastsInDim S2048x1 (![0] : Fin 1 → Fin S2048x1.rank)
  bcast_S19200x4_S19200x1x4_0_2 : S19200x4.BroadcastsInDim S19200x1x4 (![0, 2] : Fin 2 → Fin S19200x1x4.rank)
  bcast_S2048x4_S1x2048x4_1_2 : S2048x4.BroadcastsInDim S1x2048x4 (![1, 2] : Fin 2 → Fin S1x2048x4.rank)
  bcast_S19200x1x4_S19200x2048x4_0_1_2 : S19200x1x4.BroadcastsInDim S19200x2048x4 (![0, 1, 2] : Fin 3 → Fin S19200x2048x4.rank)
  bcast_S1x2048x4_S19200x2048x4_0_1_2 : S1x2048x4.BroadcastsInDim S19200x2048x4 (![0, 1, 2] : Fin 3 → Fin S19200x2048x4.rank)
  reducesTo_S19200x2048x4_S19200x2048_d2 : S19200x2048x4.ReducesTo [2] S19200x2048
  slices_S19200x4_S19200x1_0_0 : S19200x4.Slices ![0, 0] S19200x1
  shapeCasts_S19200x1_S19200 : S19200x1.ShapeCasts S19200
  slices_S19200x4_S19200x1_0_1 : S19200x4.Slices ![0, 1] S19200x1
  slices_S19200x4_S19200x1_0_2 : S19200x4.Slices ![0, 2] S19200x1
  slices_S19200x4_S19200x1_0_3 : S19200x4.Slices ![0, 3] S19200x1
  concatenates_S19200x1_S19200x1_S19200x1_S19200x1_S19200x4_d1 : Shape.Concatenates [S19200x1, S19200x1, S19200x1, S19200x1] S19200x4 1
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  concatenates_S2048x1_S2048x1_S2048x1_S2048x1_S2048x4_d1 : Shape.Concatenates [S2048x1, S2048x1, S2048x1, S2048x1] S2048x4 1
  slices_S19200x4_S19200x2_0_0 : S19200x4.Slices ![0, 0] S19200x2
  bcast_S19200x2_S19200x1x2_0_2 : S19200x2.BroadcastsInDim S19200x1x2 (![0, 2] : Fin 2 → Fin S19200x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S19200x1x2_S19200x2048x2_0_1_2 : S19200x1x2.BroadcastsInDim S19200x2048x2 (![0, 1, 2] : Fin 3 → Fin S19200x2048x2.rank)
  bcast_S1x2048x2_S19200x2048x2_0_1_2 : S1x2048x2.BroadcastsInDim S19200x2048x2 (![0, 1, 2] : Fin 3 → Fin S19200x2048x2.rank)
  slices_S19200x4_S19200x2_0_2 : S19200x4.Slices ![0, 2] S19200x2
  slices_S2048x4_S2048x2_0_2 : S2048x4.Slices ![0, 2] S2048x2
  bcast_S_S19200x2048x2 : S_.BroadcastsInDim S19200x2048x2 (![] : Fin 0 → Fin S19200x2048x2.rank)
  slices_S19200x2048x2_S19200x2048x1_0_0_0 : S19200x2048x2.Slices ![0, 0, 0] S19200x2048x1
  shapeCasts_S19200x2048x1_S19200x2048 : S19200x2048x1.ShapeCasts S19200x2048
  slices_S19200x2048x2_S19200x2048x1_0_0_1 : S19200x2048x2.Slices ![0, 0, 1] S19200x2048x1
  bcast_S2048_S1x2048_1 : S2048.BroadcastsInDim S1x2048 (![1] : Fin 1 → Fin S1x2048.rank)
  bcast_S19200x1_S19200x2048_0_1 : S19200x1.BroadcastsInDim S19200x2048 (![0, 1] : Fin 2 → Fin S19200x2048.rank)
  bcast_S1x2048_S19200x2048_0_1 : S1x2048.BroadcastsInDim S19200x2048 (![0, 1] : Fin 2 → Fin S19200x2048.rank)
  bcast_S_S19200x2048 : S_.BroadcastsInDim S19200x2048 (![] : Fin 0 → Fin S19200x2048.rank)
  shapeCasts_S19200x2048_S64x300x2048 : S19200x2048.ShapeCasts S64x300x2048
  gather_S19200x92_S2048x1_S19200x2048_0_1_n_n_1_1_192001_wf : GatherDims.WF S19200x92 S2048x1 S19200x2048 [0] [1] [] [1] [] 1 ![19200, 1]

variable [Facts₀]

def gather_S19200x92_S2048x1_S19200x2048_0_1_n_n_1_1_192001 : GatherDims S19200x92 S2048x1 S19200x2048 where
  offsetDims := [0]
  collapsedSliceDims := [1]
  operandBatchingDims := []
  startIndicesBatchingDims := []
  startIndexMap := [1]
  indexVectorDim := 1
  sliceSizes := ![19200, 1]
  wf := gather_S19200x92_S2048x1_S19200x2048_0_1_n_n_1_1_192001_wf

class Facts : Prop extends Facts₀ where

variable [Facts]
-- ==== Proof.Spec.lean ====
/-
  The cost matrix of a set-prediction matcher, entry by entry, as one function of the four argument arrays.

  Row `r` of the 19200 × 2048 matrix is a query (a row of class logits and a predicted box), column `t` a target (a
  label and a box). Boxes are given as centre and extent `(cx, cy, w, h)`. The entry is

      5 · L1(p, b) + 1 · (−softmax(x)[label]) + 2 · (−GIoU(p, b)),

  where `softmax(x)[c] = exp(x c − max x) / Σ exp(x c' − max x)` over the 92 classes, `L1` is the sum of the four
  absolute coordinate differences, and `GIoU = inter / union − (hull − union) / hull` on the corner forms of the two
  boxes (`inter`, `hull`: the clipped-at-zero width times height of the intersection and of the enclosing box).
  Everything is read on the extended reals with the quotient `Ideal.div`; the weights and the one half are kept as
  the words both programs print, never evaluated. The matrix is finally re-laid as 64 × 300 × 2048.
-/
import Idealize.ShloMosaic.PureOps.Ideal
import Idealize.ShloMosaic.PureOps.Ideal.Laws
import Idealize.ShloMosaic.Lib.ValueIdx

noncomputable section

namespace Matcher

open Idealize.ShloMosaic Idealize.ShloMosaic.ValueIdx

/-- One half, the box weight 5, the class weight 1, the GIoU weight 2 and −∞, as the f32 words both programs carry. -/
abbrev half : EReal := Ideal.ofBits .f32 0x3F000000#32
abbrev wBox : EReal := Ideal.ofBits .f32 0x40A00000#32
abbrev wCls : EReal := Ideal.ofBits .f32 0x3F800000#32
abbrev wGiou : EReal := Ideal.ofBits .f32 0x40000000#32
abbrev negInf : EReal := Ideal.ofBits .f32 0xFF800000#32

/-! ## A box's corners and area -/

def x1 (b : Fin 4 → EReal) : EReal := b 0 - half * b 2
def y1 (b : Fin 4 → EReal) : EReal := b 1 - half * b 3
def x2 (b : Fin 4 → EReal) : EReal := b 0 + half * b 2
def y2 (b : Fin 4 → EReal) : EReal := b 1 + half * b 3
def area (b : Fin 4 → EReal) : EReal := (x2 b - x1 b) * (y2 b - y1 b)

/-! ## Two boxes: intersection, union, enclosing box, generalized IoU, L1 distance -/

def inter (p t : Fin 4 → EReal) : EReal :=
  max (min (x2 p) (x2 t) - max (x1 p) (x1 t)) 0 * max (min (y2 p) (y2 t) - max (y1 p) (y1 t)) 0
def union (p t : Fin 4 → EReal) : EReal := area p + area t - inter p t
def hull (p t : Fin 4 → EReal) : EReal :=
  max (max (x2 p) (x2 t) - min (x1 p) (x1 t)) 0 * max (max (y2 p) (y2 t) - min (y1 p) (y1 t)) 0
def giou (p t : Fin 4 → EReal) : EReal :=
  Ideal.div (inter p t) (union p t) - Ideal.div (hull p t - union p t) (hull p t)
def l1 (p t : Fin 4 → EReal) : EReal := ∑ k : Fin 4, max (p k - t k) (-(p k - t k))

/-! ## The softmax of a row of 92 logits -/

def rowMax (x : Fin 92 → EReal) : EReal := (Finset.univ : Finset (Fin 92)).fold max negInf x
def expShift (x : Fin 92 → EReal) (c : Fin 92) : EReal := Ideal.exp (x c - rowMax x)
def prob (x : Fin 92 → EReal) (c : Fin 92) : EReal := Ideal.div (expShift x c) (∑ c' : Fin 92, expShift x c')

/-! ## One entry, and the matrix -/

/-- The weighted sum of the three losses: `L` the L1 distance, `C` the class probability, `G` the generalized IoU. -/
def entry (L C G : EReal) : EReal := wBox * L + wCls * (-C) + wGiou * (-G)

/-- A label word read as a class: signed, clamped into `[0, 91]` (the identity on the labels `0 … 91`). -/
def label (w : BitVec 32) : Fin 92 := ⟨min w.toInt.toNat 91, by omega⟩

/-- Entry `(r, t)` from the logits `X`, the predicted boxes `PB`, the target boxes `TB` and the labels `LB`. -/
def costAt (X : (⟨2, ![19200, 92]⟩ : Shape).Idx → EReal) (PB : (⟨2, ![19200, 4]⟩ : Shape).Idx → EReal)
    (TB : (⟨2, ![2048, 4]⟩ : Shape).Idx → EReal) (LB : (⟨1, ![2048]⟩ : Shape).Idx → BitVec 32)
    (r : Fin 19200) (t : Fin 2048) : EReal :=
  entry (l1 (fun k => PB (ix2 r k)) (fun k => TB (ix2 t k)))
    (prob (fun c => X (ix2 r c)) (label (LB (ix1 t))))
    (giou (fun k => PB (ix2 r k)) (fun k => TB (ix2 t k)))

/-- The 19200 × 2048 matrix. -/
def cost2 (X : (⟨2, ![19200, 92]⟩ : Shape).Idx → EReal) (PB : (⟨2, ![19200, 4]⟩ : Shape).Idx → EReal)
    (TB : (⟨2, ![2048, 4]⟩ : Shape).Idx → EReal) (LB : (⟨1, ![2048]⟩ : Shape).Idx → BitVec 32) :
    (⟨2, ![19200, 2048]⟩ : Shape).Idx → EReal :=
  fun j => costAt X PB TB LB ⟨(j 0).val, idx2_lt0 j⟩ ⟨(j 1).val, idx2_lt1 j⟩

theorem cost2_ix2 (X : (⟨2, ![19200, 92]⟩ : Shape).Idx → EReal) (PB : (⟨2, ![19200, 4]⟩ : Shape).Idx → EReal)
    (TB : (⟨2, ![2048, 4]⟩ : Shape).Idx → EReal) (LB : (⟨1, ![2048]⟩ : Shape).Idx → BitVec 32)
    (r : Fin 19200) (t : Fin 2048) : cost2 X PB TB LB (ix2 r t) = costAt X PB TB LB r t := rfl

/-- The result: the logits and predicted boxes re-laid as 19200 rows, the matrix, re-laid as 64 × 300 × 2048. -/
def result (a0 : (⟨3, ![64, 300, 92]⟩ : Shape).Idx → EReal) (a1 : (⟨3, ![64, 300, 4]⟩ : Shape).Idx → EReal)
    (a2 : (⟨1, ![2048]⟩ : Shape).Idx → BitVec 32) (a3 : (⟨2, ![2048, 4]⟩ : Shape).Idx → EReal) :
    (⟨3, ![64, 300, 2048]⟩ : Shape).Idx → EReal :=
  shapeCast ⟨3, ![64, 300, 2048]⟩
    (cost2 (shapeCast ⟨2, ![19200, 92]⟩ a0 (by decide)) (shapeCast ⟨2, ![19200, 4]⟩ a1 (by decide)) a3 a2) (by decide)

/-- The labels are classes: every label word, read signed, lies in `[0, 92)`. -/
def InRange (a2 : (⟨1, ![2048]⟩ : Shape).Idx → BitVec 32) : Prop :=
  ∀ t : Fin 2048, 0 ≤ (a2 (ix1 t)).toInt ∧ (a2 (ix1 t)).toInt < 92

end Matcher

end
-- ==== Proof.Labels.lean ====
/-
  The labels are classes. From the precondition (every float input finite, every label word at least 0 and below 92,
  each a conjunction reduced over its array) the two label conjuncts are read back entry by entry.
-/
import proofs.«401199_j18476949307960_1_alg».proof.Pre_finite_inputs
import proofs.«401199_j18476949307960_1_alg».proof.Proof.Spec
import Idealize.ShloMosaic.Lib.ReduceAll
import Idealize.ShloMosaic.Lib.StableHlo.Predicate

noncomputable section

namespace Matcher

open Idealize.ShloMosaic Idealize.ShloMosaic.ValueIdx

/-- Under the precondition every label word, read signed, lies in `[0, 92)`. -/
theorem inRange_of_pre [Cert.Pre_finite_inputs.Facts]
    (a0 : FVec Ideal Cert.Pre_finite_inputs.S64x300x92 .f32) (a1 : FVec Ideal Cert.Pre_finite_inputs.S64x300x4 .f32)
    (a2 : IVec Cert.Pre_finite_inputs.S2048 32) (a3 : FVec Ideal Cert.Pre_finite_inputs.S2048x4 .f32)
    (h : Cert.Pre_finite_inputs.fn (F := Ideal) a0 a1 a2 a3 = fun _ => 1#1) : InRange a2 := by
  have h0 := congrFun h ValueIdx.ix0
  dsimp only [Cert.Pre_finite_inputs.fn, Cert.Pre_finite_inputs.fn_part1] at h0
  obtain ⟨h17, h20⟩ := IntOp.andi_eq_one.1 h0
  obtain ⟨-, h16⟩ := IntOp.andi_eq_one.1 h17
  intro t
  -- the rank-0 shape has a single index, so each reduction is over every entry
  haveI : Subsingleton Cert.Pre_finite_inputs.S_.Idx := ⟨fun a b => funext fun d => d.elim0⟩
  have e1 := Host.reduce_andi_all _ _ _ _ _ h16 (ix1 t)
  have e2 := Host.reduce_andi_all _ _ _ _ _ h20 (ix1 t)
  have g1 : (0#32 : BitVec 32).toInt ≤ (a2 (ix1 t)).toInt := by
    have c := IntOp.cmpi_sge.1 e1
    rwa [StableHlo.Predicate.bcast_scalar _ Cert.Pre_finite_inputs.Facts.h_S_] at c
  have g2 : (a2 (ix1 t)).toInt < (92#32 : BitVec 32).toInt := by
    have c := IntOp.cmpi_slt.1 e2
    rwa [StableHlo.Predicate.bcast_scalar _ Cert.Pre_finite_inputs.Facts.h_S_] at c
  have z0 : (0#32 : BitVec 32).toInt = 0 := by decide
  have z92 : (92#32 : BitVec 32).toInt = 92 := by decide
  rw [z0] at g1
  rw [z92] at g2
  exact ⟨g1, g2⟩

end Matcher

end
-- ==== Proof.OneHot.lean ====
/-
  A sum against an indicator picks one term. The indicator is the i32 equality test of a class number with a label
  word, widened to a float: 1 where they are equal, 0 elsewhere. A label word in `[0, 92)` (read signed) is its own
  unsigned value, so the class it names is the one class whose number equals the word.
-/
import proofs.«401199_j18476949307960_1_alg».proof.Proof.Spec

noncomputable section

namespace Matcher

open Idealize.ShloMosaic Idealize.ShloMosaic.ValueIdx

/-- The indicator of class `c` against a label word: the i32 equality test of `c` with the word, widened to f32. -/
def indicator (c : Fin 92) (w : BitVec 32) : EReal :=
  FloatOps.uitofp (F := Ideal) .f32 (IntOp.cmpi .eq (BitVec.ofNat 32 c.val) w)

/-- A label word in range names the class of its unsigned value. -/
theorem label_val (w : BitVec 32) (h0 : 0 ≤ w.toInt) (h1 : w.toInt < 92) : (label w).val = w.toNat := by
  have hlt : w.toNat < 4294967296 := w.isLt
  have hc := BitVec.toInt_eq_toNat_cond w
  show min w.toInt.toNat 91 = w.toNat
  split at hc <;> omega

/-- The indicator is 1 at the label's class and 0 at every other. -/
theorem indicator_eq (c : Fin 92) (w : BitVec 32) (h0 : 0 ≤ w.toInt) (h1 : w.toInt < 92) :
    indicator c w = if c = label w then 1 else 0 := by
  have hl := label_val w h0 h1
  have hc92 : c.val < 92 := c.isLt
  show (((BitVec.ofBool (BitVec.ofNat 32 c.val == w)).toNat : ℝ) : EReal) = _
  by_cases hc : c = label w
  · have hw : BitVec.ofNat 32 c.val = w := by
      apply BitVec.eq_of_toNat_eq
      rw [BitVec.toNat_ofNat, hc, hl]
      exact Nat.mod_eq_of_lt w.isLt
    rw [if_pos hc, hw]
    simp
  · have hw : ¬ BitVec.ofNat 32 c.val = w := by
      intro e
      apply hc
      apply Fin.ext
      rw [hl, ← e, BitVec.toNat_ofNat]
      exact (Nat.mod_eq_of_lt (by omega)).symm
    rw [if_neg hc]
    have : (BitVec.ofNat 32 c.val == w) = false := by simpa using hw
    rw [this]
    simp

/-- Against a label in range, the weighted sum over the classes is the weight at the label. -/
theorem sum_mul_indicator (f : Fin 92 → EReal) (w : BitVec 32) (h0 : 0 ≤ w.toInt) (h1 : w.toInt < 92) :
    ∑ c : Fin 92, f c * indicator c w = f (label w) := by
  rw [Finset.sum_eq_single (label w)]
  · rw [indicator_eq _ w h0 h1, if_pos rfl, mul_one]
  · intro c _ hc
    rw [indicator_eq c w h0 h1, if_neg hc, mul_zero]
  · intro h
    exact absurd (Finset.mem_univ _) h

end Matcher

end
-- ==== Proof.KernelClass.lean ====
/-
  The class term of one entry of one output block: the softmax of row `p` of the 480 × 92 logits block (row maximum,
  shifted exponentials, their sum, the quotient), multiplied as a matrix with the 92 × 256 indicator block and negated
  (as `0 − ·`). A change of float format is the identity on the extended reals, so the product is the plain sum over
  the 92 classes.
-/
import proofs.«401199_j18476949307960_1_alg».proof.Proof.Gen.KernelIdeal.Frame
import proofs.«401199_j18476949307960_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Matcher

open Cert.KernelIdeal Cert.KernelIdeal.Gen Idealize.ShloMosaic Idealize.ShloMosaic.ValueIdx

/-! ## The layout steps at an index -/

/-- A vector cast to a column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and spread over the 92 classes reads, at `(p, c)`, the value of row `p`. -/
theorem keepdims_apply {α : Type} (x : S480.Idx → α) (p : Fin 480) (c : Fin 92) :
    broadcastTo S480x92 (shapeCast S480x1 x shapeCasts_S480_S480x1) broadcasts_S480x1_S480x92 (ix2 p c) = x (ix1 p) :=
  (broadcastTo_a1_ab_apply _ _ p c).trans (shapeCast_a_a1_apply x _ p 0)

/-! ## The two reductions along a row -/

/-- The reduced index `p` with class `c` put back on the reduced axis is `(p, c)`. -/
theorem lift_row (p : Fin 480) (c : Fin 92) : reduces_S480x92_S480.lift (ix1 p) c = ix2 p c :=
  funext fun a => Fin.ext (by match a with | ⟨0, _⟩ => rfl | ⟨1, _⟩ => rfl)

/-- The maximum along row `p`, from `-∞`, is the row's `rowMax`. -/
theorem rowMax_apply (v : FVec Ideal S480x92 .f32) (hφ : FKind.Formats .f32)
    (hacc : (0xFF800000#32 : BitVec 32) = FKind.maximumf.neutral .f32 hφ) (p : Fin 480) :
    multiReduction .maximumf [1] S480 v 0xFF800000#32 reduces_S480x92_S480 hφ hacc (ix1 p)
      = rowMax (fun c => v (ix2 p c)) := by
  refine (Ideal.multiReduction_maximumf_single v 0xFF800000#32 reduces_S480x92_S480 hφ hacc (ix1 p)).trans ?_
  have hf : (v ∘ reduces_S480x92_S480.lift (ix1 p)) = fun c : Fin 92 => v (ix2 p c) :=
    funext fun c => congrArg v (lift_row p c)
  rw [hf]
  rfl

/-- The sum along row `p` is the sum over the 92 classes. -/
theorem rowSum_apply (v : FVec Ideal S480x92 .f32) (hφ : FKind.Formats .f32)
    (hacc : (0x00000000#32 : BitVec 32) = FKind.add.neutral .f32 hφ) (p : Fin 480) :
    multiReduction .add [1] S480 v 0x00000000#32 reduces_S480x92_S480 hφ hacc (ix1 p)
      = ∑ c : Fin 92, v (ix2 p c) := by
  refine (Ideal.multiReduction_add_single v 0x00000000#32 reduces_S480x92_S480 hφ hacc (ix1 p)).trans ?_
  exact Finset.sum_congr rfl fun c _ => congrArg v (lift_row p c)

/-! ## The product with the indicator block -/

/-- The left operand's row is the output's row. -/
theorem lhs_dot_0 (j : S480x256.Idx) (k : dot_S480x92_S92x256_S480x256_1_0_0_1_n_n.contr.Idx) :
    (dot_S480x92_S92x256_S480x256_1_0_0_1_n_n.lhsIdx j k 0 : ℕ) = j 0 := by
  simp [DotDims.lhsIdx, dot_S480x92_S92x256_S480x256_1_0_0_1_n_n]; rfl
/-- The left operand's column is the contracted coordinate. -/
theorem lhs_dot_1 (j : S480x256.Idx) (k : dot_S480x92_S92x256_S480x256_1_0_0_1_n_n.contr.Idx) :
    (dot_S480x92_S92x256_S480x256_1_0_0_1_n_n.lhsIdx j k 1 : ℕ) = k ⟨0, by decide⟩ := by
  simp [DotDims.lhsIdx, dot_S480x92_S92x256_S480x256_1_0_0_1_n_n]; rfl
/-- The right operand's row is the contracted coordinate. -/
theorem rhs_dot_0 (j : S480x256.Idx) (k : dot_S480x92_S92x256_S480x256_1_0_0_1_n_n.contr.Idx) :
    (dot_S480x92_S92x256_S480x256_1_0_0_1_n_n.rhsIdx j k 0 : ℕ) = k ⟨0, by decide⟩ := by
  simp [DotDims.rhsIdx, dot_S480x92_S92x256_S480x256_1_0_0_1_n_n]; rfl
/-- The right operand's column is the output's column. -/
theorem rhs_dot_1 (j : S480x256.Idx) (k : dot_S480x92_S92x256_S480x256_1_0_0_1_n_n.contr.Idx) :
    (dot_S480x92_S92x256_S480x256_1_0_0_1_n_n.rhsIdx j k 1 : ℕ) = j 1 := by
  simp [DotDims.rhsIdx, dot_S480x92_S92x256_S480x256_1_0_0_1_n_n]; rfl

/-- The 480 × 92 by 92 × 256 product into the zero block reads, at `(p, q)`, the sum over the 92 classes of the products. -/
theorem matmul_entry {φ₁ φ₂ : FTy} (A : FVec Ideal S480x92 φ₁) (B : FVec Ideal S92x256 φ₂) (p : Fin 480) (q : Fin 256) :
    matmul dot_S480x92_S92x256_S480x256_1_0_0_1_n_n none A B (constant S480x256 .f32 0x00000000#32) (ix2 p q)
      = ∑ c : Fin 92, A (ix2 p c) * B (ix2 c q) := by
  show FloatOps.matmul _ none A B _ (ix2 p q) = _
  rw [Ideal.matmul_constant_zero_apply,
    ← Equiv.sum_comp (contrEquiv1 dot_S480x92_S92x256_S480x256_1_0_0_1_n_n 92 rfl rfl).symm]
  refine Finset.sum_congr rfl fun c _ => ?_
  have c2 := contrEquiv1_symm_val dot_S480x92_S92x256_S480x256_1_0_0_1_n_n 92 rfl rfl c
  have l2 : dot_S480x92_S92x256_S480x256_1_0_0_1_n_n.lhsIdx (ix2 p q)
      ((contrEquiv1 dot_S480x92_S92x256_S480x256_1_0_0_1_n_n 92 rfl rfl).symm c) = ix2 p c := by
    funext ax; apply Fin.ext
    match ax with
    | ⟨0, _⟩ => exact lhs_dot_0 _ _
    | ⟨1, _⟩ => exact (lhs_dot_1 _ _).trans c2
  have r2 : dot_S480x92_S92x256_S480x256_1_0_0_1_n_n.rhsIdx (ix2 p q)
      ((contrEquiv1 dot_S480x92_S92x256_S480x256_1_0_0_1_n_n 92 rfl rfl).symm c) = ix2 c q := by
    funext ax; apply Fin.ext
    match ax with
    | ⟨0, _⟩ => exact (rhs_dot_0 _ _).trans c2
    | ⟨1, _⟩ => exact rhs_dot_1 _ _
  rw [l2, r2]

/-- An exponential at an index is the exponential of the element. -/
theorem exp_apply {s : Shape} {φ : FTy} (a : FVec Ideal s φ) (i : s.Idx) : exp a i = Ideal.exp (a i) := rfl

/-- The shifted exponential of entry `(p, c)`: the body's `exp (x − max)` is the specification's `expShift`. -/
theorem expShift_apply (v0 : FVec Ideal S480x92 .f32) (hφ : FKind.Formats .f32)
    (hacc : (0xFF800000#32 : BitVec 32) = FKind.maximumf.neutral .f32 hφ) (p : Fin 480) (c : Fin 92) :
    exp (subf v0 (broadcastTo S480x92
        (shapeCast S480x1 (multiReduction .maximumf [1] S480 v0 0xFF800000#32 reduces_S480x92_S480 hφ hacc)
          shapeCasts_S480_S480x1) broadcasts_S480x1_S480x92)) (ix2 p c)
      = expShift (fun c' => v0 (ix2 p c')) c := by
  rw [exp_apply, subf_apply, keepdims_apply, rowMax_apply]
  rfl

/-- The body's softmax at `(p, c)`: the shifted exponential over the row's sum of them, the specification's `prob`. -/
theorem softmax_apply (v0 : FVec Ideal S480x92 .f32) (hφ : FKind.Formats .f32)
    (hmax : (0xFF800000#32 : BitVec 32) = FKind.maximumf.neutral .f32 hφ)
    (hadd : (0x00000000#32 : BitVec 32) = FKind.add.neutral .f32 hφ) (p : Fin 480) (c : Fin 92) :
    divf
        (exp (subf v0 (broadcastTo S480x92
          (shapeCast S480x1 (multiReduction .maximumf [1] S480 v0 0xFF800000#32 reduces_S480x92_S480 hφ hmax)
            shapeCasts_S480_S480x1) broadcasts_S480x1_S480x92)))
        (broadcastTo S480x92
          (shapeCast S480x1
            (multiReduction .add [1] S480
              (exp (subf v0 (broadcastTo S480x92
                (shapeCast S480x1 (multiReduction .maximumf [1] S480 v0 0xFF800000#32 reduces_S480x92_S480 hφ hmax)
                  shapeCasts_S480_S480x1) broadcasts_S480x1_S480x92)))
              0x00000000#32 reduces_S480x92_S480 hφ hadd)
            shapeCasts_S480_S480x1) broadcasts_S480x1_S480x92) (ix2 p c)
      = prob (fun c' => v0 (ix2 p c')) c := by
  rw [divf_apply, keepdims_apply, rowSum_apply, expShift_apply]
  unfold prob
  exact congrArg (Ideal.div _) (Finset.sum_congr rfl fun c' _ => expShift_apply v0 hφ hmax p c')

/-- Entry `(p, q)` of the body's class loss, from the logits block `v0` and the indicator block `v12`. -/
theorem class_entry (v0 : Vec Ideal S480x92 .f32) (v12 : Vec Ideal S92x256 .f32) (p : Fin 480) (q : Fin 256) :
    k0_pay1 (F := Ideal) v0 v12 (ix2 p q)
      = -(∑ c : Fin 92, prob (fun c' => v0 (ix2 p c')) c * v12 (ix2 c q)) := by
  unfold k0_pay1
  simp only [subf_apply, broadcast_apply, shapeCast_self]
  rw [matmul_entry, Ideal.ofBits_def, Ideal.ofBits_zero_f32, zero_sub]
  congr 1
  refine Finset.sum_congr rfl fun c _ => ?_
  rw [truncf_apply, truncf_apply]
  exact congrArg (· * v12 (ix2 c q)) (softmax_apply v0 _ _ _ p c)

end Matcher

end
-- ==== Proof.KernelEntry.lean ====
/-
  One entry of one output block of the kernel. The body's single store writes, at row `p` and column `q` of the
  480 × 256 block, the weighted sum of the three losses of query row `p` of the logits and predicted-box blocks
  against target row `q` of the target-box block, the class probability being the product of the softmax row with
  column `q` of the indicator block.
-/
import proofs.«401199_j18476949307960_1_alg».proof.Proof.Gen.KernelIdeal.Frame
import proofs.«401199_j18476949307960_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«401199_j18476949307960_1_alg».proof.Proof.KernelClass

noncomputable section

namespace Matcher

open Cert.KernelIdeal Cert.KernelIdeal.Gen Idealize.ShloMosaic Idealize.ShloMosaic.ValueIdx

section Readers
variable {α : Type}

/-- The one-column cut of a matrix at column `o` reads, at row `a`, the matrix at `(a, k)` with `k = o`. -/
theorem slice_col_apply {n0 n1 : Nat} (o : Nat) (X : (⟨2, ![n0, n1]⟩ : Shape).Idx → α)
    (h : (⟨2, ![n0, n1]⟩ : Shape).Slices ![0, o] ⟨2, ![n0, 1]⟩) (a : Fin n0) (k : Fin n1) (hk : k.val = o) :
    extractStridedSlice ⟨2, ![n0, 1]⟩ ![0, o] X h (ix2 a (0 : Fin 1)) = X (ix2 a k) :=
  slice2_axis1_apply o X h a 0 k (by rw [hk]; rfl)

/-- The one-row cut of a matrix at row `o` reads, at column `e`, the matrix at `(k, e)` with `k = o`. -/
theorem slice_row_apply {n0 n1 : Nat} (o : Nat) (X : (⟨2, ![n0, n1]⟩ : Shape).Idx → α)
    (h : (⟨2, ![n0, n1]⟩ : Shape).Slices ![o, 0] ⟨2, ![1, n1]⟩) (e : Fin n1) (k : Fin n0) (hk : k.val = o) :
    extractStridedSlice ⟨2, ![1, n1]⟩ ![o, 0] X h (ix2 (0 : Fin 1) e) = X (ix2 k e) :=
  slice2_axis0_apply o X h 0 e k (by rw [hk]; rfl)

end Readers

/-- The predicted-box block cast to its own shape is itself. -/
theorem pay2_eq (v18 : Vec Ideal S480x4 .f32) : k0_pay2 (F := Ideal) v18 = v18 :=
  shapeCast_self v18 _

/-- The transposed target-box block reads, at `(k, q)`, the block at `(q, k)`. -/
theorem pay3_apply (v20 : Vec Ideal S256x4 .f32) (k : Fin 4) (q : Fin 256) :
    k0_pay3 (F := Ideal) v20 (ix2 k q) = v20 (ix2 q k) :=
  transpose_ix2_apply v20 _ k q

/-- The absolute difference of a column and a row, each broadcast over the block, read at `(p, q)`. -/
theorem absdiff_apply (col : FVec Ideal S480x1 .f32) (row : FVec Ideal S1x256 .f32) (p : Fin 480) (q : Fin 256) :
    absf (subf (broadcastTo S480x256 col broadcasts_S480x1_S480x256) (broadcastTo S480x256 row broadcasts_S1x256_S480x256))
        (ix2 p q)
      = max (col (ix2 p (0 : Fin 1)) - row (ix2 (0 : Fin 1) q)) (-(col (ix2 p (0 : Fin 1)) - row (ix2 (0 : Fin 1) q))) := by
  show max (broadcastTo S480x256 col broadcasts_S480x1_S480x256 (ix2 p q) - broadcastTo S480x256 row broadcasts_S1x256_S480x256 (ix2 p q))
      (-(broadcastTo S480x256 col broadcasts_S480x1_S480x256 (ix2 p q) - broadcastTo S480x256 row broadcasts_S1x256_S480x256 (ix2 p q))) = _
  rw [broadcastTo_a1_ab_apply col, broadcastTo_1b_ab_apply row]

/-- Column `k` of the predicted-box block, cut out of its identity cast, reads the block at `(p, k)`. -/
theorem colOf (v18 : Vec Ideal S480x4 .f32) (o : Nat) (h : S480x4.Slices ![0, o] S480x1) (p : Fin 480) (k : Fin 4)
    (hk : k.val = o) :
    extractStridedSlice S480x1 ![0, o] (k0_pay2 (F := Ideal) v18) h (ix2 p (0 : Fin 1)) = v18 (ix2 p k) := by
  rw [pay2_eq]; exact slice_col_apply o v18 h p k hk

/-- Row `k` of the transposed target-box block reads, at column `q`, the block at `(q, k)`. -/
theorem rowOf (v20 : Vec Ideal S256x4 .f32) (o : Nat) (h : S4x256.Slices ![o, 0] S1x256) (q : Fin 256) (k : Fin 4)
    (hk : k.val = o) :
    extractStridedSlice S1x256 ![o, 0] (k0_pay3 (F := Ideal) v20) h (ix2 (0 : Fin 1) q) = v20 (ix2 q k) :=
  (slice_row_apply o _ h q k hk).trans (pay3_apply v20 k q)

/-- Entry `(p, q)` of the body's L1 loss, from the predicted-box block `v18` and the target-box block `v20`: the four
    absolute coordinate differences added one after the other from zero. -/
theorem l1_entry (v18 : Vec Ideal S480x4 .f32) (v20 : Vec Ideal S256x4 .f32) (p : Fin 480) (q : Fin 256) :
    k0_pay6 (F := Ideal) (k0_pay3 (F := Ideal) v20) (k0_pay4 (F := Ideal) v18 v20) (k0_pay5 (F := Ideal) v18) (ix2 p q)
      = l1 (fun k => v18 (ix2 p k)) (fun k => v20 (ix2 q k)) := by
  unfold k0_pay6 k0_pay4 k0_pay5
  simp only [addf_apply, absdiff_apply, broadcast_apply, Ideal.ofBits_def, Ideal.ofBits_zero_f32, zero_add]
  rw [colOf v18 0 _ p 0 rfl, colOf v18 1 _ p 1 rfl, colOf v18 2 _ p 2 rfl, colOf v18 3 _ p 3 rfl,
    rowOf v20 0 _ q 0 rfl, rowOf v20 1 _ q 1 rfl, rowOf v20 2 _ q 2 rfl, rowOf v20 3 _ q 3 rfl]
  unfold l1
  rw [Fin.sum_univ_four]

/-- A column broadcast over the block reads, at `(p, q)`, the column at row `p`. -/
theorem bcol_apply (col : FVec Ideal S480x1 .f32) (p : Fin 480) (q : Fin 256) :
    broadcastTo S480x256 col broadcasts_S480x1_S480x256 (ix2 p q) = col (ix2 p (0 : Fin 1)) :=
  broadcastTo_a1_ab_apply col _ p q

/-- A row broadcast over the block reads, at `(p, q)`, the row at column `q`. -/
theorem brow_apply (row : FVec Ideal S1x256 .f32) (p : Fin 480) (q : Fin 256) :
    broadcastTo S480x256 row broadcasts_S1x256_S480x256 (ix2 p q) = row (ix2 (0 : Fin 1) q) :=
  broadcastTo_1b_ab_apply row _ p q

/-! ## The predicted box's corners and area, as columns -/

/-- Row `p` of the left-edge column is the left edge of predicted box `p`. -/
theorem pay11_apply (v : Vec Ideal S480x4 .f32) (p : Fin 480) :
    k0_pay11 (F := Ideal) (k0_pay2 (F := Ideal) v) (ix2 p (0 : Fin 1)) = Matcher.x1 (fun k => v (ix2 p k)) := by
  unfold k0_pay11 k0_pay7 k0_pay9
  simp only [subf_apply, mulf_apply, broadcast_apply, Ideal.ofBits_def]
  rw [colOf v 0 _ p 0 rfl, colOf v 2 _ p 2 rfl]
  rfl

/-- Row `p` of the top-edge column is the top edge of predicted box `p`. -/
theorem pay12_apply (v : Vec Ideal S480x4 .f32) (p : Fin 480) :
    k0_pay12 (F := Ideal) (k0_pay2 (F := Ideal) v) (ix2 p (0 : Fin 1)) = Matcher.y1 (fun k => v (ix2 p k)) := by
  unfold k0_pay12 k0_pay8 k0_pay10
  simp only [subf_apply, mulf_apply, broadcast_apply, Ideal.ofBits_def]
  rw [colOf v 1 _ p 1 rfl, colOf v 3 _ p 3 rfl]
  rfl

/-- Row `p` of the right-edge column is the right edge of predicted box `p`. -/
theorem pay13_apply (v : Vec Ideal S480x4 .f32) (p : Fin 480) :
    k0_pay13 (F := Ideal) (k0_pay2 (F := Ideal) v) (ix2 p (0 : Fin 1)) = Matcher.x2 (fun k => v (ix2 p k)) := by
  unfold k0_pay13 k0_pay7 k0_pay9
  simp only [addf_apply, mulf_apply, broadcast_apply, Ideal.ofBits_def]
  rw [colOf v 0 _ p 0 rfl, colOf v 2 _ p 2 rfl]
  rfl

/-- Row `p` of the bottom-edge column is the bottom edge of predicted box `p`. -/
theorem pay14_apply (v : Vec Ideal S480x4 .f32) (p : Fin 480) :
    k0_pay14 (F := Ideal) (k0_pay2 (F := Ideal) v) (ix2 p (0 : Fin 1)) = Matcher.y2 (fun k => v (ix2 p k)) := by
  unfold k0_pay14 k0_pay8 k0_pay10
  simp only [addf_apply, mulf_apply, broadcast_apply, Ideal.ofBits_def]
  rw [colOf v 1 _ p 1 rfl, colOf v 3 _ p 3 rfl]
  rfl

/-- Row `p` of the area column is the area of predicted box `p`. -/
theorem pay15_apply (v : Vec Ideal S480x4 .f32) (p : Fin 480) :
    k0_pay15 (F := Ideal) (k0_pay2 (F := Ideal) v) (ix2 p (0 : Fin 1)) = area (fun k => v (ix2 p k)) := by
  unfold k0_pay15
  simp only [subf_apply, mulf_apply]
  rw [pay11_apply, pay12_apply, pay13_apply, pay14_apply]
  rfl

/-! ## The target box's corners and area, as rows -/

/-- Column `q` of the left-edge row is the left edge of target box `q`. -/
theorem pay20_apply (v : Vec Ideal S256x4 .f32) (q : Fin 256) :
    k0_pay20 (F := Ideal) (k0_pay3 (F := Ideal) v) (ix2 (0 : Fin 1) q) = Matcher.x1 (fun k => v (ix2 q k)) := by
  unfold k0_pay20 k0_pay16 k0_pay18
  simp only [subf_apply, mulf_apply, broadcast_apply, Ideal.ofBits_def]
  rw [rowOf v 0 _ q 0 rfl, rowOf v 2 _ q 2 rfl]
  rfl

/-- Column `q` of the top-edge row is the top edge of target box `q`. -/
theorem pay21_apply (v : Vec Ideal S256x4 .f32) (q : Fin 256) :
    k0_pay21 (F := Ideal) (k0_pay3 (F := Ideal) v) (ix2 (0 : Fin 1) q) = Matcher.y1 (fun k => v (ix2 q k)) := by
  unfold k0_pay21 k0_pay17 k0_pay19
  simp only [subf_apply, mulf_apply, broadcast_apply, Ideal.ofBits_def]
  rw [rowOf v 1 _ q 1 rfl, rowOf v 3 _ q 3 rfl]
  rfl

/-- Column `q` of the right-edge row is the right edge of target box `q`. -/
theorem pay22_apply (v : Vec Ideal S256x4 .f32) (q : Fin 256) :
    k0_pay22 (F := Ideal) (k0_pay3 (F := Ideal) v) (ix2 (0 : Fin 1) q) = Matcher.x2 (fun k => v (ix2 q k)) := by
  unfold k0_pay22 k0_pay16 k0_pay18
  simp only [addf_apply, mulf_apply, broadcast_apply, Ideal.ofBits_def]
  rw [rowOf v 0 _ q 0 rfl, rowOf v 2 _ q 2 rfl]
  rfl

/-- Column `q` of the bottom-edge row is the bottom edge of target box `q`. -/
theorem pay23_apply (v : Vec Ideal S256x4 .f32) (q : Fin 256) :
    k0_pay23 (F := Ideal) (k0_pay3 (F := Ideal) v) (ix2 (0 : Fin 1) q) = Matcher.y2 (fun k => v (ix2 q k)) := by
  unfold k0_pay23 k0_pay17 k0_pay19
  simp only [addf_apply, mulf_apply, broadcast_apply, Ideal.ofBits_def]
  rw [rowOf v 1 _ q 1 rfl, rowOf v 3 _ q 3 rfl]
  rfl

/-- Column `q` of the area row is the area of target box `q`. -/
theorem pay24_apply (v : Vec Ideal S256x4 .f32) (q : Fin 256) :
    k0_pay24 (F := Ideal) (k0_pay3 (F := Ideal) v) (ix2 (0 : Fin 1) q) = area (fun k => v (ix2 q k)) := by
  unfold k0_pay24
  simp only [subf_apply, mulf_apply]
  rw [pay20_apply, pay21_apply, pay22_apply, pay23_apply]
  rfl

/-! ## The broadcasts and maxima of the corners over the block -/

/-- Entry `(p, q)` of the larger left edge. -/
theorem pay25_apply (v : Vec Ideal S480x4 .f32) (w : Vec Ideal S256x4 .f32) (p : Fin 480) (q : Fin 256) :
    k0_pay25 (F := Ideal) (k0_pay2 (F := Ideal) v) (k0_pay3 (F := Ideal) w) (ix2 p q)
      = max (Matcher.x1 (fun k => v (ix2 p k))) (Matcher.x1 (fun k => w (ix2 q k))) := by
  unfold k0_pay25
  simp only [maximumf_apply, bcol_apply, brow_apply]
  rw [pay11_apply, pay20_apply]

/-- Entry `(p, q)` of the larger top edge. -/
theorem pay26_apply (v : Vec Ideal S480x4 .f32) (w : Vec Ideal S256x4 .f32) (p : Fin 480) (q : Fin 256) :
    k0_pay26 (F := Ideal) (k0_pay2 (F := Ideal) v) (k0_pay3 (F := Ideal) w) (ix2 p q)
      = max (Matcher.y1 (fun k => v (ix2 p k))) (Matcher.y1 (fun k => w (ix2 q k))) := by
  unfold k0_pay26
  simp only [maximumf_apply, bcol_apply, brow_apply]
  rw [pay12_apply, pay21_apply]

/-- Entry `(p, q)` of the predicted right edge broadcast over the block. -/
theorem pay27_apply (v : Vec Ideal S480x4 .f32) (p : Fin 480) (q : Fin 256) :
    k0_pay27 (F := Ideal) (k0_pay2 (F := Ideal) v) (ix2 p q) = Matcher.x2 (fun k => v (ix2 p k)) := by
  unfold k0_pay27
  rw [bcol_apply, pay13_apply]

/-- Entry `(p, q)` of the target right edge broadcast over the block. -/
theorem pay28_apply (w : Vec Ideal S256x4 .f32) (p : Fin 480) (q : Fin 256) :
    k0_pay28 (F := Ideal) (k0_pay3 (F := Ideal) w) (ix2 p q) = Matcher.x2 (fun k => w (ix2 q k)) := by
  unfold k0_pay28
  rw [brow_apply, pay22_apply]

/-- The zero offsets of a whole-buffer rectangle, as the constant function. -/
theorem hz : (![0, 0] : Fin 2 → Nat) = fun _ => 0 := funext fun a => by fin_cases a <;> rfl

/-- Entry `(p, q)` of what the body leaves in the output block, from the four input blocks. -/
theorem out_entry (x0 : Vec Ideal S480x92 .f32) (x1 : Vec Ideal S480x4 .f32) (x2 : Vec Ideal S256x4 .f32)
    (x3 : Vec Ideal S92x256 .f32) (p : Fin 480) (q : Fin 256) :
    out0_4 (F := Ideal) x0 x1 x2 x3 (ix2 p q)
      = entry (l1 (fun k => x1 (ix2 p k)) (fun k => x2 (ix2 q k)))
          (∑ c : Fin 92, prob (fun c' => x0 (ix2 p c')) c * x3 (ix2 c q))
          (giou (fun k => x1 (ix2 p k)) (fun k => x2 (ix2 q k))) := by
  unfold out0_4
  rw [View.canon_unit_zero hz]
  simp only [View.ld_unit_zero (S := S480x92) hz, View.ld_unit_zero (S := S480x4) hz,
    View.ld_unit_zero (S := S256x4) hz, View.ld_unit_zero (S := S92x256) hz]
  unfold k0_pay29
  simp only [addf_apply, subf_apply, mulf_apply, divf_apply, maximumf_apply, minimumf_apply, broadcast_apply,
    bcol_apply, brow_apply, Ideal.ofBits_def, Ideal.ofBits_zero_f32, zero_sub]
  rw [l1_entry, class_entry, pay11_apply, pay12_apply, pay13_apply, pay14_apply, pay15_apply, pay20_apply, pay21_apply,
    pay22_apply, pay23_apply, pay24_apply, pay25_apply, pay26_apply, pay27_apply, pay28_apply]
  unfold entry giou Matcher.inter Matcher.union hull
  rfl

end Matcher

end
-- ==== Proof.KernelArray.lean ====
/-
  The kernel's result array. Grid point `t` of the 40 × 8 grid writes back block `(t / 8, t mod 8)` of the 19200 × 2048
  matrix; its entry `(p, q)` is the spec's entry `(480 · (t / 8) + p, 256 · (t mod 8) + q)`: the logits and predicted-box
  blocks are rows `480 · (t / 8) …` of the arguments re-laid as 19200 rows, the target-box block rows `256 · (t mod 8) …` of
  the target boxes, and the fourth block columns `256 · (t mod 8) …` of the indicator table that the host lines before
  the region build from the labels (class number against label word, widened to a float); against a label in range the
  product of a softmax row with an indicator column is the probability at the label. The blocks tile the matrix, so
  the array after the run is the spec's matrix, and the host line after the region re-lays it as 64 × 300 × 2048.
-/
import proofs.«401199_j18476949307960_1_alg».proof.Proof.Gen.KernelIdeal.Frame
import proofs.«401199_j18476949307960_1_alg».proof.Proof.Spec
import proofs.«401199_j18476949307960_1_alg».proof.Proof.OneHot
import proofs.«401199_j18476949307960_1_alg».proof.Proof.KernelEntry
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Matcher.Kernel

open Cert.KernelIdeal Cert.KernelIdeal.Gen Matcher

variable (m : (ℓ : Loc nD τ sig) → Buf (Elt Ideal) ℓ) (ρ : Dev nD → PrngReg)

/-- The four argument arrays of core `c`. -/
abbrev a0 (c : Dev nD) : Vec Ideal S64x300x92 .f32 := m ((c : Thread nD τ).loc main_arg0)
abbrev a1 (c : Dev nD) : Vec Ideal S64x300x4 .f32 := m ((c : Thread nD τ).loc main_arg1)
abbrev a2 (c : Dev nD) : IVec S2048 32 := m ((c : Thread nD τ).loc main_arg2)
abbrev a3 (c : Dev nD) : Vec Ideal S2048x4 .f32 := m ((c : Thread nD τ).loc main_arg3)

/-- The logits and the predicted boxes re-laid as 19200 rows. -/
abbrev X (c : Dev nD) : S19200x92.Idx → EReal := shapeCast S19200x92 (a0 m c) (by decide)
abbrev PB (c : Dev nD) : S19200x4.Idx → EReal := shapeCast S19200x4 (a1 m c) (by decide)

/-! ## The arrays as the region finds them -/

/-- The first window's array is the logits re-laid. -/
theorem V_v0 (c : Dev nD) : (V m c main_v0 : S19200x92.Idx → EReal) = X m c := by
  show StableHlo.after hostOps0 (fun b => m (c, b)) (Proc.devRef .tc main_v0) = _
  after_results
  rfl

/-- The second window's array is the predicted boxes re-laid. -/
theorem V_v1 (c : Dev nD) : (V m c main_v1 : S19200x4.Idx → EReal) = PB m c := by
  show StableHlo.after hostOps0 (fun b => m (c, b)) (Proc.devRef .tc main_v1) = _
  after_results
  rfl

/-- The fourth window's array is the indicator table: class number against label word, widened. -/
theorem V_v8 (c : Dev nD) (cls : Fin 92) (t : Fin 2048) :
    (V m c main_v8 : S92x2048.Idx → EReal) (ix2 cls t) = indicator cls (a2 m c (ix1 t)) := by
  have e : (V m c main_v8 : S92x2048.Idx → EReal)
      = uitofp (F := Ideal) .f32 (cmpi .eq
          (broadcastInDim S92x2048 ![0, 1] bcast_S92x1_S92x2048_0_1 (broadcastInDim S92x1 ![0] bcast_S92_S92x1_0 (iotaInDim S92 32 0)))
          (broadcastInDim S92x2048 ![0, 1] bcast_S1x2048_S92x2048_0_1 (broadcastInDim S1x2048 ![1] bcast_S2048_S1x2048_1 (a2 m c)))) := by
    show StableHlo.after hostOps0 (fun b => m (c, b)) (Proc.devRef .tc main_v8) = _
    after_results
  rw [e]
  have h1 : broadcastInDim S92x2048 ![0, 1] bcast_S92x1_S92x2048_0_1
      (broadcastInDim S92x1 ![0] bcast_S92_S92x1_0 (iotaInDim S92 32 0)) (ix2 cls t) = BitVec.ofNat 32 cls.val := by
    rw [broadcastInDim_apply _ _ _ (ix2 cls t) (ix2 cls (0 : Fin 1)) (fun a => by match a with | ⟨0, _⟩ => rfl | ⟨1, _⟩ => rfl),
      broadcastInDim_apply _ _ _ (ix2 cls (0 : Fin 1)) (ix1 cls) (fun a => by match a with | ⟨0, _⟩ => rfl)]
    rfl
  have h2 : broadcastInDim S92x2048 ![0, 1] bcast_S1x2048_S92x2048_0_1
      (broadcastInDim S1x2048 ![1] bcast_S2048_S1x2048_1 (a2 m c)) (ix2 cls t) = a2 m c (ix1 t) := by
    rw [broadcastInDim_apply _ _ _ (ix2 cls t) (ix2 (0 : Fin 1) t) (fun a => by match a with | ⟨0, _⟩ => rfl | ⟨1, _⟩ => rfl),
      broadcastInDim_apply _ _ _ (ix2 (0 : Fin 1) t) (ix1 t) (fun a => by match a with | ⟨0, _⟩ => rfl)]
  show FloatOps.uitofp (F := Ideal) .f32 (IntOp.cmpi .eq _ _) = _
  rw [h1, h2]
  rfl

/-! ## The index maps over the grid -/

/-- Decided once over the 320 grid points: the logits and predicted-box windows move with the output's row block, the
    target-box and indicator windows with its column block, and the output's block indices stay in 40 × 8. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) < 40 ∧ win0_4.index t (1 : Fin 2) < 8 :=
  (by decide +kernel : ∀ t : Fin grid0.N, _)

/-- Every block of the 40 × 8 tiling is some grid point's. -/
theorem idx_onto : ∀ (q0 : Fin 40) (q1 : Fin 8), ∃ t : Fin cfg0.N, win0_4.index t = ![q0.val, q1.val] :=
  (by decide +kernel : ∀ (q0 : Fin 40) (q1 : Fin 8), ∃ t : Fin grid0.N, win0_4.index t = ![q0.val, q1.val])

/-! ## The input blocks read at an entry -/

/-- Row `p` of the logits block at point `t` is row `r = 480 · (row block) + p` of the re-laid logits. -/
theorem blk0 (c : Dev nD) (t : Fin cfg0.N) (p : Fin 480) (k : Fin 92) (r : Fin 19200)
    (hr : r.val = win0_4.index t (0 : Fin 2) * 480 + p.val) :
    (iblk m c 0 t : Vec Ideal S480x92 .f32) (ix2 p k) = X m c (ix2 r k) := by
  obtain ⟨e0, e1, -⟩ := idx_facts t
  unfold iblk
  rw [View.read_apply]
  show V m c main_v0 _ = _
  rw [V_v0]
  congr 1
  funext a
  apply Fin.ext
  match a with
  | ⟨0, _⟩ => show win0_0.index t (0 : Fin 2) * 480 + 1 * p.val = r.val; rw [e0, hr]; omega
  | ⟨1, _⟩ => show win0_0.index t (1 : Fin 2) * 92 + 1 * k.val = k.val; rw [e1]; omega

/-- Row `p` of the predicted-box block at point `t` is row `r` of the re-laid predicted boxes. -/
theorem blk1 (c : Dev nD) (t : Fin cfg0.N) (p : Fin 480) (k : Fin 4) (r : Fin 19200)
    (hr : r.val = win0_4.index t (0 : Fin 2) * 480 + p.val) :
    (iblk m c 1 t : Vec Ideal S480x4 .f32) (ix2 p k) = PB m c (ix2 r k) := by
  obtain ⟨-, -, e0, e1, -⟩ := idx_facts t
  unfold iblk
  rw [View.read_apply]
  show V m c main_v1 _ = _
  rw [V_v1]
  congr 1
  funext a
  apply Fin.ext
  match a with
  | ⟨0, _⟩ => show win0_1.index t (0 : Fin 2) * 480 + 1 * p.val = r.val; rw [e0, hr]; omega
  | ⟨1, _⟩ => show win0_1.index t (1 : Fin 2) * 4 + 1 * k.val = k.val; rw [e1]; omega

/-- Row `q` of the target-box block at point `t` is row `u = 256 · (column block) + q` of the target boxes. -/
theorem blk2 (c : Dev nD) (t : Fin cfg0.N) (q : Fin 256) (k : Fin 4) (u : Fin 2048)
    (hu : u.val = win0_4.index t (1 : Fin 2) * 256 + q.val) :
    (iblk m c 2 t : Vec Ideal S256x4 .f32) (ix2 q k) = a3 m c (ix2 u k) := by
  obtain ⟨-, -, -, -, e0, e1, -⟩ := idx_facts t
  unfold iblk
  rw [View.read_apply]
  show V m c main_arg3 _ = _
  rw [V_main_arg3]
  congr 1
  funext a
  apply Fin.ext
  match a with
  | ⟨0, _⟩ => show win0_2.index t (0 : Fin 2) * 256 + 1 * q.val = u.val; rw [e0, hu]; omega
  | ⟨1, _⟩ => show win0_2.index t (1 : Fin 2) * 4 + 1 * k.val = k.val; rw [e1]; omega

/-- Column `q` of the indicator block at point `t` is column `u` of the indicator table. -/
theorem blk3 (c : Dev nD) (t : Fin cfg0.N) (cls : Fin 92) (q : Fin 256) (u : Fin 2048)
    (hu : u.val = win0_4.index t (1 : Fin 2) * 256 + q.val) :
    (iblk m c 3 t : Vec Ideal S92x256 .f32) (ix2 cls q) = indicator cls (a2 m c (ix1 u)) := by
  obtain ⟨-, -, -, -, -, -, e0, e1, -⟩ := idx_facts t
  unfold iblk
  rw [View.read_apply]
  show V m c main_v8 _ = _
  rw [← V_v8 m c cls u]
  congr 1
  funext a
  apply Fin.ext
  match a with
  | ⟨0, _⟩ => show win0_3.index t (0 : Fin 2) * 92 + 1 * cls.val = cls.val; rw [e0]; omega
  | ⟨1, _⟩ => show win0_3.index t (1 : Fin 2) * 256 + 1 * q.val = u.val; rw [e1, hu]; omega

/-! ## One entry of one block is the spec's entry -/

/-- The spec's matrix of core `c`'s arguments. -/
abbrev G (c : Dev nD) : S19200x2048.Idx → EReal := cost2 (X m c) (PB m c) (a3 m c) (a2 m c)

/-- Entry `(p, q)` of what point `t` leaves in the output block is entry `(r, u)` of the spec's matrix, the labels in range. -/
theorem entry_eq (c : Dev nD) (h : InRange (a2 m c)) (t : Fin cfg0.N) (p : Fin 480) (q : Fin 256) (r : Fin 19200) (u : Fin 2048)
    (hr : r.val = win0_4.index t (0 : Fin 2) * 480 + p.val) (hu : u.val = win0_4.index t (1 : Fin 2) * 256 + q.val) :
    out0_4 (F := Ideal) (iblk m c 0 t) (iblk m c 1 t) (iblk m c 2 t) (iblk m c 3 t) (ix2 p q) = G m c (ix2 r u) := by
  have e0 : (fun k : Fin 92 => (iblk m c 0 t : Vec Ideal S480x92 .f32) (ix2 p k)) = fun k => X m c (ix2 r k) :=
    funext fun k => blk0 m c t p k r hr
  have e1 : (fun k : Fin 4 => (iblk m c 1 t : Vec Ideal S480x4 .f32) (ix2 p k)) = fun k => PB m c (ix2 r k) :=
    funext fun k => blk1 m c t p k r hr
  have e2 : (fun k : Fin 4 => (iblk m c 2 t : Vec Ideal S256x4 .f32) (ix2 q k)) = fun k => a3 m c (ix2 u k) :=
    funext fun k => blk2 m c t q k u hu
  have hs : (∑ cls : Fin 92, prob (fun k => X m c (ix2 r k)) cls * (iblk m c 3 t : Vec Ideal S92x256 .f32) (ix2 cls q))
      = prob (fun k => X m c (ix2 r k)) (label (a2 m c (ix1 u))) :=
    (Finset.sum_congr rfl fun cls _ => congrArg (_ * ·) (blk3 m c t cls q u hu)).trans
      (sum_mul_indicator (prob fun k => X m c (ix2 r k)) (a2 m c (ix1 u)) (h u).1 (h u).2)
  rw [out_entry, e0, e1, e2, hs]
  rfl

/-! ## From the blocks to the array -/

/-- What point `t` writes back is block `t` of the spec's matrix. -/
theorem flushed_eq (c : Dev nD) (h : InRange (a2 m c)) (t : Fin cfg0.N) (hf : (cfg0.win 4).flush t = true) :
    (dats m 0 c).flushed 4 t = ((cfg0.win 4).blk t).view.read (Elt Ideal) (G m c) := by
  obtain ⟨-, -, -, -, -, -, -, -, b0, b1⟩ := idx_facts t
  show (cfg0.win 4).cut (grid0.coords t) ((dats m 0 c).after 4 t) = _
  rw [after0_4]
  funext y
  rw [View.read_apply]
  have hy0 : (y 0).val < 480 := (y 0).isLt
  have hy1 : (y 1).val < 256 := (y 1).isLt
  refine Eq.trans ?_ ((entry_eq m c h t ⟨(y 0).val, hy0⟩ ⟨(y 1).val, hy1⟩
    ⟨win0_4.index t (0 : Fin 2) * 480 + (y 0).val, by omega⟩ ⟨win0_4.index t (1 : Fin 2) * 256 + (y 1).val, by omega⟩ rfl rfl).trans ?_)
  · show out0_4 (F := Ideal) (iblk m c 0 t) (iblk m c 1 t) (iblk m c 2 t) (iblk m c 3 t) y = _
    congr 1
    funext a
    match a with
    | ⟨0, _⟩ => rfl
    | ⟨1, _⟩ => rfl
  · congr 1
    funext a
    apply Fin.ext
    match a with
    | ⟨0, _⟩ => show win0_4.index t (0 : Fin 2) * 480 + (y 0).val = win0_4.index t (0 : Fin 2) * 480 + 1 * (y 0).val; omega
    | ⟨1, _⟩ => show win0_4.index t (1 : Fin 2) * 256 + (y 1).val = win0_4.index t (1 : Fin 2) * 256 + 1 * (y 1).val; omega

/-- An index of the matrix is in point `t`'s block iff each coordinate is in the block's range on its axis. -/
theorem mem_blk (t : Fin cfg0.N) (i : S19200x2048.Idx) :
    i ∈ ((cfg0.win 4).blk t).view.set ↔ ∀ a : Fin 2, win0_4.index t a * S480x256.size a ≤ (i a).val
      ∧ (i a).val < win0_4.index t a * S480x256.size a + S480x256.size a := by
  show i ∈ ((View.whole main_v9).slice (win0_4.rect t)).set ↔ _
  rw [View.set_slice_whole, Rect.mem_set_unit]
  exact Iff.rfl

/-- The blocks tile the matrix: entry `(i, j)` lies in block `(i / 480, j / 256)`. -/
theorem cover (i : S19200x2048.Idx) : ∃ t : Fin cfg0.N, (cfg0.win 4).flush t = true ∧ i ∈ ((cfg0.win 4).blk t).view.set := by
  have hi0 : (i 0).val < 19200 := (i 0).isLt
  have hi1 : (i 1).val < 2048 := (i 1).isLt
  obtain ⟨t, ht⟩ := idx_onto ⟨(i 0).val / 480, by omega⟩ ⟨(i 1).val / 256, by omega⟩
  have q0 : win0_4.index t (0 : Fin 2) = (i 0).val / 480 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 480 ≤ (i 0).val ∧ (i 0).val < win0_4.index t (0 : Fin 2) * 480 + 480; omega
  | ⟨1, _⟩ => show win0_4.index t (1 : Fin 2) * 256 ≤ (i 1).val ∧ (i 1).val < win0_4.index t (1 : Fin 2) * 256 + 256; omega

/-- The output array after the run is the spec's matrix. -/
theorem final (c : Dev nD) (h : InRange (a2 m c)) : (dats m 0 c).arrAt 4 cfg0.N = G m c :=
  (dats m 0 c).arrAt_eq_of_cover 4 (G m c) (flushed_eq m c h) cover

/-! ## The host line after the region, and the run -/

/-- The result buffer after the last host line: the matrix re-laid as 64 × 300 × 2048. -/
theorem tail_value (c : Dev nD) (h : InRange (a2 m c)) :
    Pipeline.afterTail₀ cfgs (dats m) 0 (V0 m) [hostOps1] c main_v10 = result (a0 m c) (a1 m c) (a2 m c) (a3 m c) := by
  unfold Pipeline.afterTail₀
  show StableHlo.after hostOps1 _ (Proc.devRef .tc main_v10) = _
  after_results
  rw [(Pipeline.withArrays_arr spec0 launch0.win.arr_inj c _ _ 4).trans (final m c h)]
  rfl

/-- The run, read: the result at the spec's function of the arguments, the arguments unchanged. -/
theorem run (h : ∀ c : Dev nD, InRange (a2 m c)) :
    θ_run defs (onTc (τ := τ) (main (F := Ideal))) ⟨m, fun _ => 0, ρ⟩ (fun r => ∀ c : Dev nD,
      r.2.mem ((c.tc : Thread nD τ).loc main_v10) = result (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
    ⟨((hr c).2 main_v10 (Pipeline.mem_restRefs_of main_v10 (by decide) (by decide))).trans (tail_value m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).1 2).trans (((dats m 0 c).arrAt_in 2 rfl _).trans ((A_eq m c 2).trans (V_main_arg3 m c)))⟩)
    (run_main m ρ)

end Matcher.Kernel

end
-- ==== Proof.RefSoftmax.lean ====
/-
  The reference's class probabilities: entry `(r, c)` of the softmax over the class axis of the logits re-laid as
  19200 rows is the spec's `prob` of row `r` at class `c`. The row maximum is a fold of `max` from −∞ (and a further
  `max` with −∞, which changes nothing); the row sum starts from the zero word.
-/
import proofs.«401199_j18476949307960_1_alg».proof.Proof.Gen.ReferenceIdeal.Read
import proofs.«401199_j18476949307960_1_alg».proof.Proof.Spec
import Idealize.ShloMosaic.Lib.ValueIdx

noncomputable section

namespace Matcher

open Cert.ReferenceIdeal Cert.ReferenceIdeal.Gen Cert.ReferenceIdeal.Read Idealize.ShloMosaic Idealize.ShloMosaic.ValueIdx

/-- Row `r`'s maximum in the reference (a fold of `max` from −∞, then one more `max` with −∞) is the spec's `rowMax` of that row. -/
theorem ref_rowMax (a0 : (⟨S64x300x92, .f32⟩ : BufTy).Contents (Elt Ideal)) (r : Fin 19200) :
    val_main_v3 (F := Ideal) a0 (ix1 r) = rowMax (fun c' => val_main_v0 (F := Ideal) a0 (ix2 r c')) := by
  rw [val_main_v3_apply, val_main_v2_apply, val_main_cst_0_apply]
  unfold val_main_v1 rowMax
  generalize val_main_v0 (F := Ideal) a0 = x
  have h := Host.reduce_eq_fold_single (FloatOps.maximumf (F := Ideal) (φ := .f32)) x (val_main_cst (F := Ideal))
    reducesTo_S19200x92_S19200_d1 (by decide) h_S_ (ix1 r)
  rw [h, val_main_cst_apply]
  have hx : (x ∘ Shape.Reduces.lift (by decide : Shape.Reduces S19200x92 [1] S19200) (ix1 r))
      = fun c' : Fin 92 => x (ix2 r c') :=
    funext fun c' => congrArg x (funext fun a => Fin.ext (by match a with | ⟨0, _⟩ => rfl | ⟨1, _⟩ => rfl))
  rw [hx]
  exact max_eq_right ((Finset.le_fold_max _).mpr (Or.inl le_rfl))

/-- Entry `(r, c)` of the reference's shifted exponentials is the spec's `expShift` of row `r` at class `c`. -/
theorem ref_expShift (a0 : (⟨S64x300x92, .f32⟩ : BufTy).Contents (Elt Ideal)) (r : Fin 19200) (c : Fin 92) :
    val_main_v7 (F := Ideal) a0 (ix2 r c) = expShift (fun c' => val_main_v0 (F := Ideal) a0 (ix2 r c')) c := by
  rw [val_main_v7_apply, val_main_v6_apply, val_main_v5_apply, val_main_v4_apply, Ideal.hostUnary_exp_def, Ideal.subf_def]
  have e : idx_main_v4 (idx_main_v5 (ix2 r c)) = ix1 r :=
    funext fun a => Fin.ext (by match a with | ⟨0, _⟩ => rfl)
  rw [e, ref_rowMax]
  rfl

/-- Entry `(r, c)` of the reference's softmax over the class axis is the spec's `prob` of row `r` at class `c`. -/
theorem ref_prob (a0 : (⟨S64x300x92, .f32⟩ : BufTy).Contents (Elt Ideal)) (r : Fin 19200) (c : Fin 92) :
    val_main_v11 (F := Ideal) a0 (ix2 r c) = prob (fun c' => val_main_v0 (F := Ideal) a0 (ix2 r c')) c := by
  rw [val_main_v11_apply, val_main_v10_apply, val_main_v9_apply, val_main_v8_apply, val_main_cst_1_apply,
    Ideal.hostDivf_def, Ideal.ofBits_def, Ideal.ofBits_zero_f32, zero_add, ref_expShift]
  unfold prob
  refine congrArg (Ideal.div _) (Finset.sum_congr rfl fun k _ => ?_)
  have e : idx_main_v8 (idx_main_v9 (idx_main_v10 (ix2 r c))) k = ix2 r k :=
    funext fun a => Fin.ext (by match a with | ⟨0, _⟩ => rfl | ⟨1, _⟩ => rfl)
  rw [e, ref_expShift]

end Matcher

end
-- ==== Proof.RefL1.lean ====
/-
  The reference's L1 distance: entry `(r, t)` of the sum over the four coordinates of the absolute differences of
  predicted box `r` and target box `t`.
-/
import proofs.«401199_j18476949307960_1_alg».proof.Proof.Gen.ReferenceIdeal.Read
import proofs.«401199_j18476949307960_1_alg».proof.Proof.Spec
import Idealize.ShloMosaic.Lib.ValueIdx

noncomputable section

namespace Matcher

open Cert.ReferenceIdeal Cert.ReferenceIdeal.Gen Cert.ReferenceIdeal.Read Idealize.ShloMosaic Idealize.ShloMosaic.ValueIdx

/-- Entry `(r, t)` of the reference's summed absolute differences is the spec's `l1` of predicted box `r` and target box `t`. -/
theorem ref_l1 (a1 : (⟨S64x300x4, .f32⟩ : BufTy).Contents (Elt Ideal)) (a3 : (⟨S2048x4, .f32⟩ : BufTy).Contents (Elt Ideal)) (r : Fin 19200) (t : Fin 2048) :
    val_main_v27 (F := Ideal) a1 a3 (ix2 r t)
      = l1 (fun k => val_main_v12 (F := Ideal) a1 (ix2 r k)) (fun k => a3 (ix2 t k)) := by
  rw [val_main_v27_apply, val_main_cst_3_apply, Ideal.ofBits_def, Ideal.ofBits_zero_f32, zero_add]
  unfold l1
  refine Finset.sum_congr rfl fun k _ => ?_
  rw [val_main_v26_apply, val_main_v25_apply, val_main_v23_apply, val_main_v21_apply, val_main_v24_apply,
    val_main_v22_apply, Ideal.hostAbsf_def, Ideal.absf_def, Ideal.subf_def]
  have e1 : idx_main_v21 (idx_main_v23 (idx_main_v27 (ix2 r t) k)) = ix2 r k :=
    funext fun a => Fin.ext (by match a with | ⟨0, _⟩ => rfl | ⟨1, _⟩ => rfl)
  have e2 : idx_main_v22 (idx_main_v24 (idx_main_v27 (ix2 r t) k)) = ix2 t k :=
    funext fun a => Fin.ext (by match a with | ⟨0, _⟩ => rfl | ⟨1, _⟩ => rfl)
  rw [e1, e2]

end Matcher

end
-- ==== Proof.RefCorners.lean ====
/-
  The reference's corner forms: the four columns `cx − w/2, cy − h/2, cx + w/2, cy + h/2` joined along the coordinate
  axis, for the predicted boxes and for the target boxes; column `k` of the joined array is the `k`-th piece.
-/
import proofs.«401199_j18476949307960_1_alg».proof.Proof.Gen.ReferenceIdeal.Read
import proofs.«401199_j18476949307960_1_alg».proof.Proof.Spec
import Idealize.ShloMosaic.Lib.ValueIdx

noncomputable section

namespace Matcher

open Cert.ReferenceIdeal Cert.ReferenceIdeal.Gen Cert.ReferenceIdeal.Read Idealize.ShloMosaic Idealize.ShloMosaic.ValueIdx

/-- Predicted box `r` as its row of the re-laid array. -/
abbrev predRow (a1 : (⟨S64x300x4, .f32⟩ : BufTy).Contents (Elt Ideal)) (r : Fin 19200) : Fin 4 → EReal := fun k => val_main_v12 (F := Ideal) a1 (ix2 r k)
/-- Target box `t` as its row. -/
abbrev tgtRow (a3 : (⟨S2048x4, .f32⟩ : BufTy).Contents (Elt Ideal)) (t : Fin 2048) : Fin 4 → EReal := fun k => a3 (ix2 t k)

section Cat
variable {α : Type} {n : Nat}

/-- Column 0 of four one-column arrays joined along the column axis is column 0 of array 0. -/
private theorem cat4_col0 (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (0 : Fin 4))
      = x0 (ix2 r (0 : Fin 1)) :=
  concatenate_apply_piece (t := ⟨2, ![n, 4]⟩) (1 : Fin 2)
    [⟨⟨2, ![n, 1]⟩, x0⟩, ⟨⟨2, ![n, 1]⟩, x1⟩, ⟨⟨2, ![n, 1]⟩, x2⟩, ⟨⟨2, ![n, 1]⟩, x3⟩] h (ix2 r (0 : Fin 4))
    0 (show 0 < 4 by omega) ⟨2, ![n, 1]⟩ x0 rfl rfl 0 rfl (ix2 r (0 : Fin 1))
    (fun b hb => by match b with | ⟨0, _⟩ => rfl | ⟨1, _⟩ => exact absurd rfl hb) rfl

/-- Column 1 of four one-column arrays joined along the column axis is column 0 of array 1. -/
private theorem cat4_col1 (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (1 : Fin 4))
      = x1 (ix2 r (0 : Fin 1)) :=
  concatenate_apply_piece (t := ⟨2, ![n, 4]⟩) (1 : Fin 2)
    [⟨⟨2, ![n, 1]⟩, x0⟩, ⟨⟨2, ![n, 1]⟩, x1⟩, ⟨⟨2, ![n, 1]⟩, x2⟩, ⟨⟨2, ![n, 1]⟩, x3⟩] h (ix2 r (1 : Fin 4))
    1 (show 1 < 4 by omega) ⟨2, ![n, 1]⟩ x1 rfl rfl 1 rfl (ix2 r (0 : Fin 1))
    (fun b hb => by match b with | ⟨0, _⟩ => rfl | ⟨1, _⟩ => exact absurd rfl hb) rfl

/-- Column 2 of four one-column arrays joined along the column axis is column 0 of array 2. -/
private theorem cat4_col2 (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (2 : Fin 4))
      = x2 (ix2 r (0 : Fin 1)) :=
  concatenate_apply_piece (t := ⟨2, ![n, 4]⟩) (1 : Fin 2)
    [⟨⟨2, ![n, 1]⟩, x0⟩, ⟨⟨2, ![n, 1]⟩, x1⟩, ⟨⟨2, ![n, 1]⟩, x2⟩, ⟨⟨2, ![n, 1]⟩, x3⟩] h (ix2 r (2 : Fin 4))
    2 (show 2 < 4 by omega) ⟨2, ![n, 1]⟩ x2 rfl rfl 2 rfl (ix2 r (0 : Fin 1))
    (fun b hb => by match b with | ⟨0, _⟩ => rfl | ⟨1, _⟩ => exact absurd rfl hb) rfl

/-- Column 3 of four one-column arrays joined along the column axis is column 0 of array 3. -/
private theorem cat4_col3 (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (3 : Fin 4))
      = x3 (ix2 r (0 : Fin 1)) :=
  concatenate_apply_piece (t := ⟨2, ![n, 4]⟩) (1 : Fin 2)
    [⟨⟨2, ![n, 1]⟩, x0⟩, ⟨⟨2, ![n, 1]⟩, x1⟩, ⟨⟨2, ![n, 1]⟩, x2⟩, ⟨⟨2, ![n, 1]⟩, x3⟩] h (ix2 r (3 : Fin 4))
    3 (show 3 < 4 by omega) ⟨2, ![n, 1]⟩ x3 rfl rfl 3 rfl (ix2 r (0 : Fin 1))
    (fun b hb => by match b with | ⟨0, _⟩ => rfl | ⟨1, _⟩ => exact absurd rfl hb) rfl

end Cat

/-- Column 0 of the reference's predicted corner array is the left edge `cx − w/2` of predicted box `r`. -/
theorem pred_x1 (a1 : (⟨S64x300x4, .f32⟩ : BufTy).Contents (Elt Ideal)) (r : Fin 19200) : val_main_v52 (F := Ideal) a1 (ix2 r (0 : Fin 4)) = x1 (predRow a1 r) := by
  unfold val_main_v52
  refine (cat4_col0 _ _ _ _ _ r).trans ?_
  rw [val_main_v48_apply, val_main_v38_apply, val_main_v29_apply, val_main_v28_apply, val_main_v37_apply, val_main_v36_apply,
    val_main_cst_4_apply, val_main_v33_apply, val_main_v32_apply]
  have ea : idx_main_v28 (idx_main_v29 (idx_main_v48 (ix2 r (0 : Fin 1)))) = ix2 r (0 : Fin 4) :=
    funext fun a => Fin.ext (by match a with | ⟨0, _⟩ => exact Nat.div_one _ | ⟨1, _⟩ => rfl)
  have eb : idx_main_v32 (idx_main_v33 (idx_main_v48 (ix2 r (0 : Fin 1)))) = ix2 r (2 : Fin 4) :=
    funext fun a => Fin.ext (by match a with | ⟨0, _⟩ => exact Nat.div_one _ | ⟨1, _⟩ => rfl)
  rw [ea, eb]
  rfl

/-- Column 1 of the reference's predicted corner array is the top edge `cy − h/2` of predicted box `r`. -/
theorem pred_y1 (a1 : (⟨S64x300x4, .f32⟩ : BufTy).Contents (Elt Ideal)) (r : Fin 19200) : val_main_v52 (F := Ideal) a1 (ix2 r (1 : Fin 4)) = y1 (predRow a1 r) := by
  unfold val_main_v52
  refine (cat4_col1 _ _ _ _ _ r).trans ?_
  rw [val_main_v49_apply, val_main_v41_apply, val_main_v31_apply, val_main_v30_apply, val_main_v40_apply, val_main_v39_apply,
    val_main_cst_5_apply, val_main_v35_apply, val_main_v34_apply]
  have ea : idx_main_v30 (idx_main_v31 (idx_main_v49 (ix2 r (0 : Fin 1)))) = ix2 r (1 : Fin 4) :=
    funext fun a => Fin.ext (by match a with | ⟨0, _⟩ => exact Nat.div_one _ | ⟨1, _⟩ => rfl)
  have eb : idx_main_v34 (idx_main_v35 (idx_main_v49 (ix2 r (0 : Fin 1)))) = ix2 r (3 : Fin 4) :=
    funext fun a => Fin.ext (by match a with | ⟨0, _⟩ => exact Nat.div_one _ | ⟨1, _⟩ => rfl)
  rw [ea, eb]
  rfl

/-- Column 2 of the reference's predicted corner array is the right edge `cx + w/2` of predicted box `r`. -/
theorem pred_x2 (a1 : (⟨S64x300x4, .f32⟩ : BufTy).Contents (Elt Ideal)) (r : Fin 19200) : val_main_v52 (F := Ideal) a1 (ix2 r (2 : Fin 4)) = x2 (predRow a1 r) := by
  unfold val_main_v52
  refine (cat4_col2 _ _ _ _ _ r).trans ?_
  rw [val_main_v50_apply, val_main_v44_apply, val_main_v29_apply, val_main_v28_apply, val_main_v43_apply, val_main_v42_apply,
    val_main_cst_6_apply, val_main_v33_apply, val_main_v32_apply]
  have ea : idx_main_v28 (idx_main_v29 (idx_main_v50 (ix2 r (0 : Fin 1)))) = ix2 r (0 : Fin 4) :=
    funext fun a => Fin.ext (by match a with | ⟨0, _⟩ => exact Nat.div_one _ | ⟨1, _⟩ => rfl)
  have eb : idx_main_v32 (idx_main_v33 (idx_main_v50 (ix2 r (0 : Fin 1)))) = ix2 r (2 : Fin 4) :=
    funext fun a => Fin.ext (by match a with | ⟨0, _⟩ => exact Nat.div_one _ | ⟨1, _⟩ => rfl)
  rw [ea, eb]
  rfl

/-- Column 3 of the reference's predicted corner array is the bottom edge `cy + h/2` of predicted box `r`. -/
theorem pred_y2 (a1 : (⟨S64x300x4, .f32⟩ : BufTy).Contents (Elt Ideal)) (r : Fin 19200) : val_main_v52 (F := Ideal) a1 (ix2 r (3 : Fin 4)) = y2 (predRow a1 r) := by
  unfold val_main_v52
  refine (cat4_col3 _ _ _ _ _ r).trans ?_
  rw [val_main_v51_apply, val_main_v47_apply, val_main_v31_apply, val_main_v30_apply, val_main_v46_apply, val_main_v45_apply,
    val_main_cst_7_apply, val_main_v35_apply, val_main_v34_apply]
  have ea : idx_main_v30 (idx_main_v31 (idx_main_v51 (ix2 r (0 : Fin 1)))) = ix2 r (1 : Fin 4) :=
    funext fun a => Fin.ext (by match a with | ⟨0, _⟩ => exact Nat.div_one _ | ⟨1, _⟩ => rfl)
  have eb : idx_main_v34 (idx_main_v35 (idx_main_v51 (ix2 r (0 : Fin 1)))) = ix2 r (3 : Fin 4) :=
    funext fun a => Fin.ext (by match a with | ⟨0, _⟩ => exact Nat.div_one _ | ⟨1, _⟩ => rfl)
  rw [ea, eb]
  rfl

/-- Column 0 of the reference's target corner array is the left edge `cx − w/2` of target box `t`. -/
theorem tgt_x1 (a3 : (⟨S2048x4, .f32⟩ : BufTy).Contents (Elt Ideal)) (t : Fin 2048) : val_main_v77 (F := Ideal) a3 (ix2 t (0 : Fin 4)) = x1 (tgtRow a3 t) := by
  unfold val_main_v77
  refine (cat4_col0 _ _ _ _ _ t).trans ?_
  rw [val_main_v73_apply, val_main_v63_apply, val_main_v54_apply, val_main_v53_apply, val_main_v62_apply, val_main_v61_apply,
    val_main_cst_8_apply, val_main_v58_apply, val_main_v57_apply]
  have ea : idx_main_v53 (idx_main_v54 (idx_main_v73 (ix2 t (0 : Fin 1)))) = ix2 t (0 : Fin 4) :=
    funext fun a => Fin.ext (by match a with | ⟨0, _⟩ => exact Nat.div_one _ | ⟨1, _⟩ => rfl)
  have eb : idx_main_v57 (idx_main_v58 (idx_main_v73 (ix2 t (0 : Fin 1)))) = ix2 t (2 : Fin 4) :=
    funext fun a => Fin.ext (by match a with | ⟨0, _⟩ => exact Nat.div_one _ | ⟨1, _⟩ => rfl)
  rw [ea, eb]
  rfl

/-- Column 1 of the reference's target corner array is the top edge `cy − h/2` of target box `t`. -/
theorem tgt_y1 (a3 : (⟨S2048x4, .f32⟩ : BufTy).Contents (Elt Ideal)) (t : Fin 2048) : val_main_v77 (F := Ideal) a3 (ix2 t (1 : Fin 4)) = y1 (tgtRow a3 t) := by
  unfold val_main_v77
  refine (cat4_col1 _ _ _ _ _ t).trans ?_
  rw [val_main_v74_apply, val_main_v66_apply, val_main_v56_apply, val_main_v55_apply, val_main_v65_apply, val_main_v64_apply,
    val_main_cst_9_apply, val_main_v60_apply, val_main_v59_apply]
  have ea : idx_main_v55 (idx_main_v56 (idx_main_v74 (ix2 t (0 : Fin 1)))) = ix2 t (1 : Fin 4) :=
    funext fun a => Fin.ext (by match a with | ⟨0, _⟩ => exact Nat.div_one _ | ⟨1, _⟩ => rfl)
  have eb : idx_main_v59 (idx_main_v60 (idx_main_v74 (ix2 t (0 : Fin 1)))) = ix2 t (3 : Fin 4) :=
    funext fun a => Fin.ext (by match a with | ⟨0, _⟩ => exact Nat.div_one _ | ⟨1, _⟩ => rfl)
  rw [ea, eb]
  rfl

/-- Column 2 of the reference's target corner array is the right edge `cx + w/2` of target box `t`. -/
theorem tgt_x2 (a3 : (⟨S2048x4, .f32⟩ : BufTy).Contents (Elt Ideal)) (t : Fin 2048) : val_main_v77 (F := Ideal) a3 (ix2 t (2 : Fin 4)) = x2 (tgtRow a3 t) := by
  unfold val_main_v77
  refine (cat4_col2 _ _ _ _ _ t).trans ?_
  rw [val_main_v75_apply, val_main_v69_apply, val_main_v54_apply, val_main_v53_apply, val_main_v68_apply, val_main_v67_apply,
    val_main_cst_10_apply, val_main_v58_apply, val_main_v57_apply]
  have ea : idx_main_v53 (idx_main_v54 (idx_main_v75 (ix2 t (0 : Fin 1)))) = ix2 t (0 : Fin 4) :=
    funext fun a => Fin.ext (by match a with | ⟨0, _⟩ => exact Nat.div_one _ | ⟨1, _⟩ => rfl)
  have eb : idx_main_v57 (idx_main_v58 (idx_main_v75 (ix2 t (0 : Fin 1)))) = ix2 t (2 : Fin 4) :=
    funext fun a => Fin.ext (by match a with | ⟨0, _⟩ => exact Nat.div_one _ | ⟨1, _⟩ => rfl)
  rw [ea, eb]
  rfl

/-- Column 3 of the reference's target corner array is the bottom edge `cy + h/2` of target box `t`. -/
theorem tgt_y2 (a3 : (⟨S2048x4, .f32⟩ : BufTy).Contents (Elt Ideal)) (t : Fin 2048) : val_main_v77 (F := Ideal) a3 (ix2 t (3 : Fin 4)) = y2 (tgtRow a3 t) := by
  unfold val_main_v77
  refine (cat4_col3 _ _ _ _ _ t).trans ?_
  rw [val_main_v76_apply, val_main_v72_apply, val_main_v56_apply, val_main_v55_apply, val_main_v71_apply, val_main_v70_apply,
    val_main_cst_11_apply, val_main_v60_apply, val_main_v59_apply]
  have ea : idx_main_v55 (idx_main_v56 (idx_main_v76 (ix2 t (0 : Fin 1)))) = ix2 t (1 : Fin 4) :=
    funext fun a => Fin.ext (by match a with | ⟨0, _⟩ => exact Nat.div_one _ | ⟨1, _⟩ => rfl)
  have eb : idx_main_v59 (idx_main_v60 (idx_main_v76 (ix2 t (0 : Fin 1)))) = ix2 t (3 : Fin 4) :=
    funext fun a => Fin.ext (by match a with | ⟨0, _⟩ => exact Nat.div_one _ | ⟨1, _⟩ => rfl)
  rw [ea, eb]
  rfl

end Matcher

end
-- ==== Proof.RefGiou.lean ====
/-
  The reference's generalized IoU: entry `(r, t)` from the corner forms of predicted box `r` and target box `t`. The
  reference clips a width at zero as `max 0 w`, the spec as `max w 0`.
-/
import proofs.«401199_j18476949307960_1_alg».proof.Proof.Gen.ReferenceIdeal.Read
import proofs.«401199_j18476949307960_1_alg».proof.Proof.Spec
import proofs.«401199_j18476949307960_1_alg».proof.Proof.RefCorners
import Idealize.ShloMosaic.Lib.ValueIdx

noncomputable section

namespace Matcher

open Cert.ReferenceIdeal Cert.ReferenceIdeal.Gen Cert.ReferenceIdeal.Read Idealize.ShloMosaic Idealize.ShloMosaic.ValueIdx

/-- In a row-major 19200 × 2048 array, position `r · 2048 + t` lies in row `r`. -/
private theorem div_rt (r : Fin 19200) (t : Fin 2048) : (r.val * 2048 + t.val) / 2048 = r.val := by
  have := t.isLt; omega

/-- In a row-major 19200 × 2048 array, position `r · 2048 + t` lies in column `t`. -/
private theorem mod_rt (r : Fin 19200) (t : Fin 2048) : (r.val * 2048 + t.val) / 1 % 2048 = t.val := by
  have := t.isLt; omega

/-- The reference's area of predicted box `r` is the spec's area of that box. -/
theorem ref_area_pred (a1 : (⟨S64x300x4, .f32⟩ : BufTy).Contents (Elt Ideal)) (r : Fin 19200) : val_main_v88 (F := Ideal) a1 (ix1 r) = area (predRow a1 r) := by
  rw [val_main_v88_apply, val_main_v82_apply, val_main_v79_apply, val_main_v78_apply, val_main_v81_apply, val_main_v80_apply, val_main_v87_apply, val_main_v84_apply, val_main_v83_apply, val_main_v86_apply, val_main_v85_apply]
  have e2 : idx_main_v78 (idx_main_v79 (ix1 r)) = ix2 r (2 : Fin 4) := funext fun a => Fin.ext (by match a with | ⟨0, _⟩ => exact Nat.div_one _ | ⟨1, _⟩ => rfl)
  have e0 : idx_main_v80 (idx_main_v81 (ix1 r)) = ix2 r (0 : Fin 4) := funext fun a => Fin.ext (by match a with | ⟨0, _⟩ => exact Nat.div_one _ | ⟨1, _⟩ => rfl)
  have e3 : idx_main_v83 (idx_main_v84 (ix1 r)) = ix2 r (3 : Fin 4) := funext fun a => Fin.ext (by match a with | ⟨0, _⟩ => exact Nat.div_one _ | ⟨1, _⟩ => rfl)
  have e1 : idx_main_v85 (idx_main_v86 (ix1 r)) = ix2 r (1 : Fin 4) := funext fun a => Fin.ext (by match a with | ⟨0, _⟩ => exact Nat.div_one _ | ⟨1, _⟩ => rfl)
  rw [e2, e0, e3, e1, pred_x2, pred_x1, pred_y2, pred_y1]
  rfl

/-- The reference's area of target box `t` is the spec's area of that box. -/
theorem ref_area_tgt (a3 : (⟨S2048x4, .f32⟩ : BufTy).Contents (Elt Ideal)) (t : Fin 2048) : val_main_v99 (F := Ideal) a3 (ix1 t) = area (tgtRow a3 t) := by
  rw [val_main_v99_apply, val_main_v93_apply, val_main_v90_apply, val_main_v89_apply, val_main_v92_apply, val_main_v91_apply, val_main_v98_apply, val_main_v95_apply, val_main_v94_apply, val_main_v97_apply, val_main_v96_apply]
  have e2 : idx_main_v89 (idx_main_v90 (ix1 t)) = ix2 t (2 : Fin 4) := funext fun a => Fin.ext (by match a with | ⟨0, _⟩ => exact Nat.div_one _ | ⟨1, _⟩ => rfl)
  have e0 : idx_main_v91 (idx_main_v92 (ix1 t)) = ix2 t (0 : Fin 4) := funext fun a => Fin.ext (by match a with | ⟨0, _⟩ => exact Nat.div_one _ | ⟨1, _⟩ => rfl)
  have e3 : idx_main_v94 (idx_main_v95 (ix1 t)) = ix2 t (3 : Fin 4) := funext fun a => Fin.ext (by match a with | ⟨0, _⟩ => exact Nat.div_one _ | ⟨1, _⟩ => rfl)
  have e1 : idx_main_v96 (idx_main_v97 (ix1 t)) = ix2 t (1 : Fin 4) := funext fun a => Fin.ext (by match a with | ⟨0, _⟩ => exact Nat.div_one _ | ⟨1, _⟩ => rfl)
  rw [e2, e0, e3, e1, tgt_x2, tgt_x1, tgt_y2, tgt_y1]
  rfl

/-- The reference's clipped horizontal overlap of predicted box `r` and target box `t`, in the spec's corner functions. -/
theorem ref_clipI_0 (a1 : (⟨S64x300x4, .f32⟩ : BufTy).Contents (Elt Ideal)) (a3 : (⟨S2048x4, .f32⟩ : BufTy).Contents (Elt Ideal)) (r : Fin 19200) (t : Fin 2048) :
    val_main_v115 (F := Ideal) a1 a3 (ix3 r t (0 : Fin 2)) =
      max (min (x2 (predRow a1 r)) (x2 (tgtRow a3 t)) - max (x1 (predRow a1 r)) (x1 (tgtRow a3 t))) 0 := by
  rw [val_main_v115_apply, val_main_call0_v1_apply, val_main_call0_v0_apply, val_main_cst_12_apply, val_main_v114_apply, val_main_v113_apply, val_main_v111_apply, val_main_v108_apply, val_main_v107_apply, val_main_v112_apply, val_main_v110_apply, val_main_v109_apply, val_main_v106_apply, val_main_v104_apply, val_main_v101_apply, val_main_v100_apply, val_main_v105_apply, val_main_v103_apply, val_main_v102_apply]
  have eP2 : idx_main_v107 (idx_main_v108 (idx_main_v111 (ix3 r t (0 : Fin 2)))) = ix2 r (2 : Fin 4) := funext fun a => Fin.ext (by match a with | ⟨0, _⟩ => rfl | ⟨1, _⟩ => rfl)
  have eT2 : idx_main_v109 (idx_main_v110 (idx_main_v112 (ix3 r t (0 : Fin 2)))) = ix2 t (2 : Fin 4) := funext fun a => Fin.ext (by match a with | ⟨0, _⟩ => rfl | ⟨1, _⟩ => rfl)
  have eP1 : idx_main_v100 (idx_main_v101 (idx_main_v104 (ix3 r t (0 : Fin 2)))) = ix2 r (0 : Fin 4) := funext fun a => Fin.ext (by match a with | ⟨0, _⟩ => rfl | ⟨1, _⟩ => rfl)
  have eT1 : idx_main_v102 (idx_main_v103 (idx_main_v105 (ix3 r t (0 : Fin 2)))) = ix2 t (0 : Fin 4) := funext fun a => Fin.ext (by match a with | ⟨0, _⟩ => rfl | ⟨1, _⟩ => rfl)
  rw [eP2, eT2, eP1, eT1, pred_x2, tgt_x2, pred_x1, tgt_x1]
  simp only [Ideal.maximumf_def, Ideal.minimumf_def, Ideal.subf_def, Ideal.ofBits_def, Ideal.ofBits_zero_f32]
  exact max_comm _ _

/-- The reference's clipped vertical overlap of predicted box `r` and target box `t`, in the spec's corner functions. -/
theorem ref_clipI_1 (a1 : (⟨S64x300x4, .f32⟩ : BufTy).Contents (Elt Ideal)) (a3 : (⟨S2048x4, .f32⟩ : BufTy).Contents (Elt Ideal)) (r : Fin 19200) (t : Fin 2048) :
    val_main_v115 (F := Ideal) a1 a3 (ix3 r t (1 : Fin 2)) =
      max (min (y2 (predRow a1 r)) (y2 (tgtRow a3 t)) - max (y1 (predRow a1 r)) (y1 (tgtRow a3 t))) 0 := by
  rw [val_main_v115_apply, val_main_call0_v1_apply, val_main_call0_v0_apply, val_main_cst_12_apply, val_main_v114_apply, val_main_v113_apply, val_main_v111_apply, val_main_v108_apply, val_main_v107_apply, val_main_v112_apply, val_main_v110_apply, val_main_v109_apply, val_main_v106_apply, val_main_v104_apply, val_main_v101_apply, val_main_v100_apply, val_main_v105_apply, val_main_v103_apply, val_main_v102_apply]
  have eP2 : idx_main_v107 (idx_main_v108 (idx_main_v111 (ix3 r t (1 : Fin 2)))) = ix2 r (3 : Fin 4) := funext fun a => Fin.ext (by match a with | ⟨0, _⟩ => rfl | ⟨1, _⟩ => rfl)
  have eT2 : idx_main_v109 (idx_main_v110 (idx_main_v112 (ix3 r t (1 : Fin 2)))) = ix2 t (3 : Fin 4) := funext fun a => Fin.ext (by match a with | ⟨0, _⟩ => rfl | ⟨1, _⟩ => rfl)
  have eP1 : idx_main_v100 (idx_main_v101 (idx_main_v104 (ix3 r t (1 : Fin 2)))) = ix2 r (1 : Fin 4) := funext fun a => Fin.ext (by match a with | ⟨0, _⟩ => rfl | ⟨1, _⟩ => rfl)
  have eT1 : idx_main_v102 (idx_main_v103 (idx_main_v105 (ix3 r t (1 : Fin 2)))) = ix2 t (1 : Fin 4) := funext fun a => Fin.ext (by match a with | ⟨0, _⟩ => rfl | ⟨1, _⟩ => rfl)
  rw [eP2, eT2, eP1, eT1, pred_y2, tgt_y2, pred_y1, tgt_y1]
  simp only [Ideal.maximumf_def, Ideal.minimumf_def, Ideal.subf_def, Ideal.ofBits_def, Ideal.ofBits_zero_f32]
  exact max_comm _ _

/-- The reference's intersection area at `(r, t)` is the spec's `inter`. -/
theorem ref_inter (a1 : (⟨S64x300x4, .f32⟩ : BufTy).Contents (Elt Ideal)) (a3 : (⟨S2048x4, .f32⟩ : BufTy).Contents (Elt Ideal)) (r : Fin 19200) (t : Fin 2048) :
    val_main_v120 (F := Ideal) a1 a3 (ix2 r t) = inter (predRow a1 r) (tgtRow a3 t) := by
  rw [val_main_v120_apply, val_main_v117_apply, val_main_v116_apply, val_main_v119_apply, val_main_v118_apply]
  have e0 : idx_main_v116 (idx_main_v117 (ix2 r t)) = ix3 r t (0 : Fin 2) := funext fun a => Fin.ext (by match a with | ⟨0, _⟩ => exact div_rt r t | ⟨1, _⟩ => exact mod_rt r t | ⟨2, _⟩ => rfl)
  have e1 : idx_main_v118 (idx_main_v119 (ix2 r t)) = ix3 r t (1 : Fin 2) := funext fun a => Fin.ext (by match a with | ⟨0, _⟩ => exact div_rt r t | ⟨1, _⟩ => exact mod_rt r t | ⟨2, _⟩ => rfl)
  rw [e0, e1, ref_clipI_0, ref_clipI_1]
  rfl

/-- The reference's union area at `(r, t)` is the spec's `union`: the two areas less the intersection. -/
theorem ref_union (a1 : (⟨S64x300x4, .f32⟩ : BufTy).Contents (Elt Ideal)) (a3 : (⟨S2048x4, .f32⟩ : BufTy).Contents (Elt Ideal)) (r : Fin 19200) (t : Fin 2048) :
    val_main_v126 (F := Ideal) a1 a3 (ix2 r t) = union (predRow a1 r) (tgtRow a3 t) := by
  rw [val_main_v126_apply, val_main_v125_apply, val_main_v123_apply, val_main_v121_apply, val_main_v124_apply, val_main_v122_apply, ref_inter]
  have eP : idx_main_v121 (idx_main_v123 (ix2 r t)) = ix1 r := funext fun a => Fin.ext (by match a with | ⟨0, _⟩ => rfl)
  have eT : idx_main_v122 (idx_main_v124 (ix2 r t)) = ix1 t := funext fun a => Fin.ext (by match a with | ⟨0, _⟩ => rfl)
  rw [eP, eT, ref_area_pred, ref_area_tgt]
  rfl

/-- The reference's clipped horizontal enclosing extent of predicted box `r` and target box `t`, in the spec's corner functions. -/
theorem ref_clipH_0 (a1 : (⟨S64x300x4, .f32⟩ : BufTy).Contents (Elt Ideal)) (a3 : (⟨S2048x4, .f32⟩ : BufTy).Contents (Elt Ideal)) (r : Fin 19200) (t : Fin 2048) :
    val_main_v143 (F := Ideal) a1 a3 (ix3 r t (0 : Fin 2)) =
      max (max (x2 (predRow a1 r)) (x2 (tgtRow a3 t)) - min (x1 (predRow a1 r)) (x1 (tgtRow a3 t))) 0 := by
  rw [val_main_v143_apply, val_main_call1_v1_apply, val_main_call1_v0_apply, val_main_cst_13_apply, val_main_v142_apply, val_main_v141_apply, val_main_v139_apply, val_main_v136_apply, val_main_v135_apply, val_main_v140_apply, val_main_v138_apply, val_main_v137_apply, val_main_v134_apply, val_main_v132_apply, val_main_v129_apply, val_main_v128_apply, val_main_v133_apply, val_main_v131_apply, val_main_v130_apply]
  have eP2 : idx_main_v135 (idx_main_v136 (idx_main_v139 (ix3 r t (0 : Fin 2)))) = ix2 r (2 : Fin 4) := funext fun a => Fin.ext (by match a with | ⟨0, _⟩ => rfl | ⟨1, _⟩ => rfl)
  have eT2 : idx_main_v137 (idx_main_v138 (idx_main_v140 (ix3 r t (0 : Fin 2)))) = ix2 t (2 : Fin 4) := funext fun a => Fin.ext (by match a with | ⟨0, _⟩ => rfl | ⟨1, _⟩ => rfl)
  have eP1 : idx_main_v128 (idx_main_v129 (idx_main_v132 (ix3 r t (0 : Fin 2)))) = ix2 r (0 : Fin 4) := funext fun a => Fin.ext (by match a with | ⟨0, _⟩ => rfl | ⟨1, _⟩ => rfl)
  have eT1 : idx_main_v130 (idx_main_v131 (idx_main_v133 (ix3 r t (0 : Fin 2)))) = ix2 t (0 : Fin 4) := funext fun a => Fin.ext (by match a with | ⟨0, _⟩ => rfl | ⟨1, _⟩ => rfl)
  rw [eP2, eT2, eP1, eT1, pred_x2, tgt_x2, pred_x1, tgt_x1]
  simp only [Ideal.maximumf_def, Ideal.minimumf_def, Ideal.subf_def, Ideal.ofBits_def, Ideal.ofBits_zero_f32]
  exact max_comm _ _

/-- The reference's clipped vertical enclosing extent of predicted box `r` and target box `t`, in the spec's corner functions. -/
theorem ref_clipH_1 (a1 : (⟨S64x300x4, .f32⟩ : BufTy).Contents (Elt Ideal)) (a3 : (⟨S2048x4, .f32⟩ : BufTy).Contents (Elt Ideal)) (r : Fin 19200) (t : Fin 2048) :
    val_main_v143 (F := Ideal) a1 a3 (ix3 r t (1 : Fin 2)) =
      max (max (y2 (predRow a1 r)) (y2 (tgtRow a3 t)) - min (y1 (predRow a1 r)) (y1 (tgtRow a3 t))) 0 := by
  rw [val_main_v143_apply, val_main_call1_v1_apply, val_main_call1_v0_apply, val_main_cst_13_apply, val_main_v142_apply, val_main_v141_apply, val_main_v139_apply, val_main_v136_apply, val_main_v135_apply, val_main_v140_apply, val_main_v138_apply, val_main_v137_apply, val_main_v134_apply, val_main_v132_apply, val_main_v129_apply, val_main_v128_apply, val_main_v133_apply, val_main_v131_apply, val_main_v130_apply]
  have eP2 : idx_main_v135 (idx_main_v136 (idx_main_v139 (ix3 r t (1 : Fin 2)))) = ix2 r (3 : Fin 4) := funext fun a => Fin.ext (by match a with | ⟨0, _⟩ => rfl | ⟨1, _⟩ => rfl)
  have eT2 : idx_main_v137 (idx_main_v138 (idx_main_v140 (ix3 r t (1 : Fin 2)))) = ix2 t (3 : Fin 4) := funext fun a => Fin.ext (by match a with | ⟨0, _⟩ => rfl | ⟨1, _⟩ => rfl)
  have eP1 : idx_main_v128 (idx_main_v129 (idx_main_v132 (ix3 r t (1 : Fin 2)))) = ix2 r (1 : Fin 4) := funext fun a => Fin.ext (by match a with | ⟨0, _⟩ => rfl | ⟨1, _⟩ => rfl)
  have eT1 : idx_main_v130 (idx_main_v131 (idx_main_v133 (ix3 r t (1 : Fin 2)))) = ix2 t (1 : Fin 4) := funext fun a => Fin.ext (by match a with | ⟨0, _⟩ => rfl | ⟨1, _⟩ => rfl)
  rw [eP2, eT2, eP1, eT1, pred_y2, tgt_y2, pred_y1, tgt_y1]
  simp only [Ideal.maximumf_def, Ideal.minimumf_def, Ideal.subf_def, Ideal.ofBits_def, Ideal.ofBits_zero_f32]
  exact max_comm _ _

/-- The reference's enclosing-box area at `(r, t)` is the spec's `hull`. -/
theorem ref_hull (a1 : (⟨S64x300x4, .f32⟩ : BufTy).Contents (Elt Ideal)) (a3 : (⟨S2048x4, .f32⟩ : BufTy).Contents (Elt Ideal)) (r : Fin 19200) (t : Fin 2048) :
    val_main_v148 (F := Ideal) a1 a3 (ix2 r t) = hull (predRow a1 r) (tgtRow a3 t) := by
  rw [val_main_v148_apply, val_main_v145_apply, val_main_v144_apply, val_main_v147_apply, val_main_v146_apply]
  have e0 : idx_main_v144 (idx_main_v145 (ix2 r t)) = ix3 r t (0 : Fin 2) := funext fun a => Fin.ext (by match a with | ⟨0, _⟩ => exact div_rt r t | ⟨1, _⟩ => exact mod_rt r t | ⟨2, _⟩ => rfl)
  have e1 : idx_main_v146 (idx_main_v147 (ix2 r t)) = ix3 r t (1 : Fin 2) := funext fun a => Fin.ext (by match a with | ⟨0, _⟩ => exact div_rt r t | ⟨1, _⟩ => exact mod_rt r t | ⟨2, _⟩ => rfl)
  rw [e0, e1, ref_clipH_0, ref_clipH_1]
  rfl

/-- The reference's generalized IoU at `(r, t)` is the spec's `giou` of predicted box `r` and target box `t`. -/
theorem ref_giou (a1 : (⟨S64x300x4, .f32⟩ : BufTy).Contents (Elt Ideal)) (a3 : (⟨S2048x4, .f32⟩ : BufTy).Contents (Elt Ideal)) (r : Fin 19200) (t : Fin 2048) :
    val_main_v151 (F := Ideal) a1 a3 (ix2 r t) = giou (predRow a1 r) (tgtRow a3 t) := by
  rw [val_main_v151_apply, val_main_v127_apply, val_main_v150_apply, val_main_v149_apply, ref_inter, ref_union, ref_hull]
  rfl

end Matcher

end
-- ==== Proof.RefValue.lean ====
/-
  The reference's result is the spec's. The class term is a gather along the class axis at the label words (a
  negative word shifted by 92, then clamped into the axis): on labels in range it reads the probability at the label.
  The three losses are then weighted and summed, and the matrix re-laid.
-/
import proofs.«401199_j18476949307960_1_alg».proof.Proof.Gen.ReferenceIdeal.Read
import proofs.«401199_j18476949307960_1_alg».proof.Proof.Spec
import proofs.«401199_j18476949307960_1_alg».proof.Proof.RefSoftmax
import proofs.«401199_j18476949307960_1_alg».proof.Proof.RefL1
import proofs.«401199_j18476949307960_1_alg».proof.Proof.RefGiou
import Idealize.ShloMosaic.Lib.ValueIdx

noncomputable section

namespace Matcher

open Cert.ReferenceIdeal Cert.ReferenceIdeal.Gen Cert.ReferenceIdeal.Read Idealize.ShloMosaic Idealize.ShloMosaic.ValueIdx

/-! ## The start indices: on labels in range the shifted-if-negative word is the label word itself -/

/-- A word that is not negative is not below the zero word: the signed compare answers the bit 0. -/
theorem cmpi_slt_zero_of_nonneg (w : BitVec 32) (hw : 0 ≤ w.toInt) : IntOp.cmpi .slt w 0#32 = 0#1 := by
  have hs : w.slt 0#32 = false := by
    unfold BitVec.slt
    simp only [BitVec.toInt_zero, decide_eq_false_iff_not, not_lt]
    exact hw
  show BitVec.ofBool (w.slt 0#32) = 0#1
  rw [hs]; rfl

/-- On labels in range the start index of target `t` is its label word: the compare with zero is false, so the select
    keeps the word and not the word plus 92. -/
theorem ref_start (a2 : (⟨S2048, .i32⟩ : BufTy).Contents (Elt Ideal)) (h : InRange a2) (t : Fin 2048) :
    val_main_v18 (F := Ideal) a2 (ix2 t (0 : Fin 1)) = a2 (ix1 t) := by
  have hi : idx_main_v18 (ix2 t (0 : Fin 1)) = ix1 t := by
    funext a; match a with | ⟨0, _⟩ => rfl
  rw [val_main_v18_apply, hi, val_main_v17_apply, val_main_v14_apply, val_main_v13_apply, val_main_c_apply,
    cmpi_slt_zero_of_nonneg _ (h t).1, select_zero]

/-! ## The gather at an index

Operand axis 0 is the one offset axis (slice size 19200, so its start is clamped to 0 and the axis is not in the start
index map): the operand row is the result's row `r`. Operand axis 1 is collapsed and start-indexed: the operand column
is the start index of the result's column `t`, read signed and clamped into `[0, 92 − 1]`, which is the spec's `label`. -/

/-- Entry `(r, t)` of the gathered probabilities, on labels in range. -/
theorem ref_gather (a0 : (⟨S64x300x92, .f32⟩ : BufTy).Contents (Elt Ideal)) (a2 : (⟨S2048, .i32⟩ : BufTy).Contents (Elt Ideal)) (h : InRange a2) (r : Fin 19200) (t : Fin 2048) :
    val_main_v19 (F := Ideal) a0 a2 (ix2 r t) = val_main_v11 (F := Ideal) a0 (ix2 r (label (a2 (ix1 t)))) := by
  unfold val_main_v19
  generalize val_main_v11 (F := Ideal) a0 = x
  unfold Host.gather
  congr 1
  funext a
  refine Fin.ext ?_
  match a with
  | ⟨0, _⟩ =>
    -- the row: no start (axis 0 is not start-indexed), no batching, the offset coordinate is the result's row
    show gather_S19200x92_S2048x1_S19200x2048_0_1_n_n_1_1_192001.start (ix2 r t) (val_main_v18 (F := Ideal) a2) 0
      + gather_S19200x92_S2048x1_S19200x2048_0_1_n_n_1_1_192001.batchCoord (ix2 r t) 0
      + gather_S19200x92_S2048x1_S19200x2048_0_1_n_n_1_1_192001.offCoord (ix2 r t) 0 = r.val
    rw [GatherDims.batchCoord_eq_zero _ _ _ List.not_mem_nil]
    have hs : gather_S19200x92_S2048x1_S19200x2048_0_1_n_n_1_1_192001.start (ix2 r t) (val_main_v18 (F := Ideal) a2) 0 = 0 := by
      unfold GatherDims.start
      rw [dif_neg (show (0 : Fin 2) ∉ gather_S19200x92_S2048x1_S19200x2048_0_1_n_n_1_1_192001.startIndexMap by decide)]
    rw [hs]
    unfold GatherDims.offCoord
    rw [dif_pos (show (0 : Fin 2) ∈ gather_S19200x92_S2048x1_S19200x2048_0_1_n_n_1_1_192001.sKept from
      (GatherDims.mem_sKept _ _).mpr ⟨by decide, List.not_mem_nil⟩)]
    rw [Nat.zero_add]
    rfl
  | ⟨1, _⟩ =>
    -- the column: the clamped start index of target `t`, no batching, no offset (the axis is collapsed)
    show gather_S19200x92_S2048x1_S19200x2048_0_1_n_n_1_1_192001.start (ix2 r t) (val_main_v18 (F := Ideal) a2) 1
      + gather_S19200x92_S2048x1_S19200x2048_0_1_n_n_1_1_192001.batchCoord (ix2 r t) 1
      + gather_S19200x92_S2048x1_S19200x2048_0_1_n_n_1_1_192001.offCoord (ix2 r t) 1 = (label (a2 (ix1 t))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S19200x92_S2048x1_S19200x2048_0_1_n_n_1_1_192001.startIndexMap from List.mem_singleton.mpr rfl)]
    have hsi : gather_S19200x92_S2048x1_S19200x2048_0_1_n_n_1_1_192001.siIdx (ix2 r t)
        ⟨List.idxOf (1 : Fin 2) gather_S19200x92_S2048x1_S19200x2048_0_1_n_n_1_1_192001.startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi, ref_start a2 h t]
    rfl

/-- The reference's result array, on labels in range. -/
theorem ref_value (a0 : (⟨S64x300x92, .f32⟩ : BufTy).Contents (Elt Ideal)) (a1 : (⟨S64x300x4, .f32⟩ : BufTy).Contents (Elt Ideal)) (a2 : (⟨S2048, .i32⟩ : BufTy).Contents (Elt Ideal)) (a3 : (⟨S2048x4, .f32⟩ : BufTy).Contents (Elt Ideal)) (h : InRange a2) :
    val_main_v161 (F := Ideal) a0 a1 a2 a3 = result a0 a1 a2 a3 := by
  -- the matrix before the last re-laying, entry by entry: 5 · L1 + 1 · (−probability at the label) + 2 · (−GIoU)
  have hm : val_main_v160 (F := Ideal) a0 a1 a2 a3
      = cost2 (shapeCast ⟨2, ![19200, 92]⟩ a0 (by decide)) (shapeCast ⟨2, ![19200, 4]⟩ a1 (by decide)) a3 a2 := by
    funext j
    obtain ⟨r, t, rfl⟩ : ∃ (r : Fin 19200) (t : Fin 2048), j = ix2 r t := ⟨j 0, j 1, eq_ix2 j⟩
    rw [cost2_ix2]
    unfold costAt entry
    rw [val_main_v160_apply, val_main_v157_apply, val_main_v159_apply, val_main_v154_apply, val_main_v156_apply,
      val_main_v153_apply, val_main_v155_apply, val_main_v158_apply, val_main_cst_14_apply, val_main_cst_15_apply,
      val_main_cst_16_apply, val_main_v152_apply, val_main_v20_apply, ref_l1, ref_gather a0 a2 h, ref_prob, ref_giou]
    simp only [Ideal.mulf_def, Ideal.addf_def, Ideal.hostNegf_def, Ideal.negf_def, Ideal.ofBits_def]
    -- the weights are the same words on both sides, and the re-laid logits and boxes are the stages' first re-layings
    rfl
  unfold result val_main_v161
  rw [hm]

end Matcher

end
-- ==== Proof.lean ====
/-
  The certificate of a set-prediction matcher's cost matrix: a tiled kernel against its array-level reference, equal
  entry by entry on the extended reals.

  Both programs compute, for each of 19200 queries (a row of 92 class logits and a predicted box) and each of 2048
  targets (a label and a box), the entry `5 · L1 + 1 · (−softmax(logits)[label]) + 2 · (−GIoU)`; the specification
  (Proof/Spec.lean) states it once. The two programs differ in how the class probability at the label is taken: the
  reference gathers it along the class axis at the label, the kernel multiplies the softmax row with a column of an
  indicator table (class number against label word). The two agree exactly when the label names a class: the
  precondition's label conjuncts (every label at least 0 and below 92) are read back entry by entry (Proof/Labels.lean),
  and against such a label the sum of a row against the indicator column is the row's entry at the label
  (Proof/OneHot.lean); outside that range the gather clamps or wraps to a class while the indicator column is zero, and
  the two programs differ. Everything else is the same expression in the same order on both sides, up to the grouping
  of a four-term sum, the order of the operands of one `max`, and `0 − x` written for `−x`; no finiteness is used.

  The kernel's side (Proof/KernelClass.lean, KernelEntry.lean, KernelArray.lean): one entry of the body's stored block
  from its four input blocks, the blocks read off the arguments, the 40 × 8 blocks tiling the matrix, the host line
  that re-lays it. The reference's side (Proof/RefSoftmax.lean, RefL1.lean, RefCorners.lean, RefGiou.lean,
  RefValue.lean): its operations read one at a time at an entry. The three frames are the generated ones (the
  reference's from its generated run), and the kernel's idealization rewrote nothing.
-/
import proofs.«401199_j18476949307960_1_alg».proof.Defs
import proofs.«401199_j18476949307960_1_alg».proof.Proof.Gen.Kernel
import proofs.«401199_j18476949307960_1_alg».proof.Proof.Gen.Kernel.Skeleton
import proofs.«401199_j18476949307960_1_alg».proof.Proof.Gen.Kernel.Launch
import proofs.«401199_j18476949307960_1_alg».proof.Proof.Gen.Kernel.Points
import proofs.«401199_j18476949307960_1_alg».proof.Proof.Gen.Kernel.Frame
import proofs.«401199_j18476949307960_1_alg».proof.Proof.Gen.KernelIdeal
import proofs.«401199_j18476949307960_1_alg».proof.Proof.Gen.KernelIdeal.Skeleton
import proofs.«401199_j18476949307960_1_alg».proof.Proof.Gen.KernelIdeal.Launch
import proofs.«401199_j18476949307960_1_alg».proof.Proof.Gen.KernelIdeal.Points
import proofs.«401199_j18476949307960_1_alg».proof.Proof.Gen.KernelIdeal.Frame
import proofs.«401199_j18476949307960_1_alg».proof.Proof.Gen.ReferenceIdeal
import proofs.«401199_j18476949307960_1_alg».proof.Proof.Gen.Pre_finite_inputs
import proofs.«401199_j18476949307960_1_alg».proof.Proof.Gen.ReferenceIdeal.Run
import proofs.«401199_j18476949307960_1_alg».proof.Proof.Gen.ReferenceIdeal.Read
import proofs.«401199_j18476949307960_1_alg».proof.Proof.Labels
import proofs.«401199_j18476949307960_1_alg».proof.Proof.KernelArray
import proofs.«401199_j18476949307960_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every label a class, both programs end at the specification's
    function of the arguments. -/
theorem algebraic : Cert.algebraic_KernelIdeal_ReferenceIdeal := by
  intro m ρ m' ρ' hpre hagree
  have hlab : ∀ c : Dev Cert.KernelIdeal.nD, Matcher.InRange (Matcher.Kernel.a2 m c) :=
    fun c => Matcher.inRange_of_pre _ _ _ _ (hpre c)
  refine ⟨fun c => Matcher.result (Matcher.Kernel.a0 m c) (Matcher.Kernel.a1 m c) (Matcher.Kernel.a2 m c) (Matcher.Kernel.a3 m c),
    Matcher.Kernel.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v161_eq, (hagree c).1, (hagree c).2.1, (hagree c).2.2.1, (hagree c).2.2.2]
  exact Matcher.ref_value _ _ _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
